-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S1000x8 : Shape := ⟨2, ![1000, 8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S1000x32 : Shape := ⟨2, ![1000, 32]⟩
abbrev S_ : Shape := ⟨0, ![]⟩

class Facts : Prop where
  bcast_S_S1000x8 : S_.BroadcastsInDim S1000x8 (![] : Fin 0 → Fin S1000x8.rank)
  reducesTo_S1000x8_S_d0_1 : S1000x8.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S1000x32 : S_.BroadcastsInDim S1000x32 (![] : Fin 0 → Fin S1000x32.rank)
  reducesTo_S1000x32_S_d0_1 : S1000x32.ReducesTo [0, 1] S_
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg0 : IVec S2097152 32) (main_arg5 : FVec F S32 .f32) (main_arg6 : FVec F S1000x32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1000x32 .f32 := Host.absf main_arg6
  let main_cst_8 : FVec F S_ .f32 := constant S_ .f32 0x7F800000#32
  let main_v25 : FVec F S1000x32 .f32 := broadcastInDim S1000x32 ![] bcast_S_S1000x32 main_cst_8
  let main_v26 : IVec S1000x32 1 := cmpf .olt main_v24 main_v25
  let main_c_9 : IVec S_ 1 := constantI S_ 1 1#1
  let main_v27 : IVec S_ 1 := (fun x v => Host.reduce IntOp.andi x v reducesTo_S1000x32_S_d0_1 h_S_) main_v26 main_c_9
  let main_v28 : IVec S_ 1 := andi main_v23 main_v27
  let main_c_10 : IVec S_ 32 := constantI S_ 32 0#32
  let main_v29 : IVec S2097152 32 := broadcastInDim S2097152 ![] bcast_S_S2097152 main_c_10
  let main_v30 : IVec S2097152 1 := cmpi .sge main_arg0 main_v29
  let main_c_11 : IVec S_ 1 := constantI S_ 1 1#1
  let main_v31 : IVec S_ 1 := (fun x v => Host.reduce IntOp.andi x v reducesTo_S2097152_S_d0 h_S_) main_v30 main_c_11
  let main_v32 : IVec S_ 1 := andi main_v28 main_v31
  main_v32

def fn {F : FTy → Type} [FloatOps F] (main_arg0 : IVec S2097152 32) (main_arg1 : FVec F S1000x8 .f32) (main_arg2 : FVec F S8x16 .f32) (main_arg3 : FVec F S16 .f32) (main_arg4 : FVec F S16x32 .f32) (main_arg5 : FVec F S32 .f32) (main_arg6 : FVec F S1000x32 .f32) : IVec S_ 1 :=
  let main_v0 : FVec F S1000x8 .f32 := Host.absf main_arg1
  let main_cst : FVec F S_ .f32 := constant S_ .f32 0x7F800000#32
  let main_v1 : FVec F S1000x8 .f32 := broadcastInDim S1000x8 ![] bcast_S_S1000x8 main_cst
  let main_v2 : IVec S1000x8 1 := cmpf .olt main_v0 main_v1
  let main_c : IVec S_ 1 := constantI S_ 1 1#1
  let main_v3 : IVec S_ 1 := (fun x v => Host.reduce IntOp.andi x v reducesTo_S1000x8_S_d0_1 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg0 main_arg5 main_arg6 main_v13 main_v16
-- ==== Kernel.lean ====
abbrev S2097152 : Shape := ⟨1, ![2097152]⟩
abbrev S1000x8 : Shape := ⟨2, ![1000, 8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S1000x32 : Shape := ⟨2, ![1000, 32]⟩
abbrev S_ : Shape := ⟨0, ![]⟩
abbrev S1000x16 : Shape := ⟨2, ![1000, 16]⟩
abbrev S1x16 : Shape := ⟨2, ![1, 16]⟩
abbrev S1x32 : Shape := ⟨2, ![1, 32]⟩
abbrev S125x256 : Shape := ⟨2, ![125, 256]⟩
abbrev S2097152x1 : Shape := ⟨2, ![2097152, 1]⟩
abbrev S2097152x32 : Shape := ⟨2, ![2097152, 32]⟩
abbrev S2048x1 : Shape := ⟨2, ![2048, 1]⟩
abbrev S2048x32 : Shape := ⟨2, ![2048, 32]⟩
abbrev S1x125 : Shape := ⟨2, ![1, 125]⟩
abbrev S2048x125 : Shape := ⟨2, ![2048, 125]⟩
abbrev S2048x256 : Shape := ⟨2, ![2048, 256]⟩
abbrev S1x256 : Shape := ⟨2, ![1, 256]⟩

abbrev nBuf : Space → Nat
  | .hbm => 37
  | .vmem => 6
  | .smem => 0
  | _ => 0

abbrev bufTy : (tb : Table) → Fin (tcTables nBuf tb) → BufTy
  | .hbm, ⟨0, _⟩ => ⟨S2097152, .i32⟩
  | .hbm, ⟨1, _⟩ => ⟨S1000x8, .f32⟩
  | .hbm, ⟨2, _⟩ => ⟨S8x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1000x32, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S_, .i32⟩
  | .hbm, ⟨13, _⟩ => ⟨S2097152, .i32⟩
  | .hbm, ⟨14, _⟩ => ⟨S2097152, .i32⟩
  | .hbm, ⟨15, _⟩ => ⟨S1000x16, .f32⟩
  | .hbm, ⟨16, _⟩ => ⟨S1x16, .f32⟩
  | .hbm, ⟨17, _⟩ => ⟨S1000x16, .f32⟩
  | .hbm, ⟨18, _⟩ => ⟨S1000x16, .f32⟩
  | .hbm, ⟨19, _⟩ => ⟨S_, .f32⟩
  | .hbm, ⟨20, _⟩ => ⟨S1000x16, .f32⟩
  | .hbm, ⟨21, _⟩ => ⟨S1000x16, .f32⟩
  | .hbm, ⟨22, _⟩ => ⟨S1000x32, .f32⟩
  | .hbm, ⟨23, _⟩ => ⟨S1x32, .f32⟩
  | .hbm, ⟨24, _⟩ => ⟨S1000x32, .f32⟩
  | .hbm, ⟨25, _⟩ => ⟨S1000x32, .f32⟩
  | .hbm, ⟨26, _⟩ => ⟨S_, .f32⟩
  | .hbm, ⟨27, _⟩ => ⟨S1000x32, .f32⟩
  | .hbm, ⟨28, _⟩ => ⟨S1000x32, .f32⟩
  | .hbm, ⟨29, _⟩ => ⟨S1000x32, .f32⟩
  | .hbm, ⟨30, _⟩ => ⟨S125x256, .f32⟩
  | .hbm, ⟨31, _⟩ => ⟨S125x256, .bf16⟩
  | .hbm, ⟨32, _⟩ => ⟨S125x256, .f32⟩
  | .hbm, ⟨33, _⟩ => ⟨S125x256, .f32⟩
  | .hbm, ⟨34, _⟩ => ⟨S125x256, .bf16⟩
  | .hbm, ⟨35, _⟩ => ⟨S2097152x1, .i32⟩
  | .hbm, ⟨36, _⟩ => ⟨S2097152x32, .f32⟩
  | .local _ .vmem, ⟨0, _⟩ => ⟨S2048x1, .i32⟩
  | .local _ .vmem, ⟨1, _⟩ => ⟨S2048x1, .i32⟩
  | .local _ .vmem, ⟨2, _⟩ => ⟨S125x256, .bf16⟩
  | .local _ .vmem, ⟨3, _⟩ => ⟨S125x256, .bf16⟩
  | .local _ .vmem, ⟨4, _⟩ => ⟨S2048x32, .f32⟩
  | .local _ .vmem, ⟨5, _⟩ => ⟨S2048x32, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_cst : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S125x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S125x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2097152 : S_.BroadcastsInDim S2097152 (![] : Fin 0 → Fin S2097152.rank)
  bcast_S16_S1x16_1 : S16.BroadcastsInDim S1x16 (![1] : Fin 1 → Fin S1x16.rank)
  bcast_S1x16_S1000x16_0_1 : S1x16.BroadcastsInDim S1000x16 (![0, 1] : Fin 2 → Fin S1000x16.rank)
  bcast_S_S1000x16 : S_.BroadcastsInDim S1000x16 (![] : Fin 0 → Fin S1000x16.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S_S1000x32 : S_.BroadcastsInDim S1000x32 (![] : Fin 0 → Fin S1000x32.rank)
  shapeCasts_S1000x32_S125x256 : S1000x32.ShapeCasts S125x256
  bitsLt_bf16_f32 : FTy.bits .bf16 < FTy.bits .f32
  shapeCasts_S2097152_S2097152x1 : S2097152.ShapeCasts S2097152x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  iota_S1x125_d1_w32 : S1x125.Iotas .tc 32 [1]
  broadcasts_S2048x1_S2048x125 : S2048x1.Broadcasts S2048x125
  broadcasts_S1x125_S2048x125 : S1x125.Broadcasts S2048x125
  inb_S125x256_S125x256_0_0 : ∀ a, (![0, 0] : Fin 2 → Nat) a + S125x256.size a ≤ S125x256.size a
  h_S125x256 : 0 < S125x256.numel
  shapeCasts_S125x256_S125x256 : S125x256.ShapeCasts S125x256
  iota_S1x256_d1_w32 : S1x256.Iotas .tc 32 [1]
  broadcasts_S1x256_S2048x256 : S1x256.Broadcasts S2048x256
  broadcasts_S2048x1_S2048x256 : S2048x1.Broadcasts S2048x256
  rotates_S2048x256_d1 : S2048x256.Rotates 1 none
  slices_S2048x256_o0_0_S2048x32 : S2048x256.Slices ![0, 0] S2048x32
  inb_S2048x32_S2048x32_0_0 : ∀ a, (![0, 0] : Fin 2 → Nat) a + S2048x32.size a ≤ S2048x32.size a
  h_S2048x32 : 0 < S2048x32.numel
  dot_S1000x8_S8x16_S1000x16_1_0_0_1_n_n_wf : DotDims.WF S1000x8 S8x16 S1000x16 [1] [0] [0] [1] [] []
  dot_S1000x16_S16x32_S1000x32_1_0_0_1_n_n_wf : DotDims.WF S1000x16 S16x32 S1000x32 [1] [0] [0] [1] [] []
  dot_S2048x125_S125x256_S2048x256_1_0_0_1_n_n_wf : DotDims.WF S2048x125 S125x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S2097152x1.size a
  hwx0_0 : ∀ i : grid0.Coords, EltTy.bits .i32 = 32 ∨ (Rect.block (s := S2097152x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S125x256.size a ≤ S125x256.size a
  hwx0_1 : ∀ i : grid0.Coords, EltTy.bits .bf16 = 32 ∨ (Rect.block (s := S125x256) S125x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S125x256.size a ≤ S125x256.size a
  hwx0_2 : ∀ i : grid0.Coords, EltTy.bits .bf16 = 32 ∨ (Rect.block (s := S125x256) S125x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S2097152x32.size a
  hwx0_3 : ∀ i : grid0.Coords, EltTy.bits .f32 = 32 ∨ (Rect.block (s := S2097152x32) S2048x32.size (cc0_transform_3 i) (hinb0_3 i)).WholeWords (EltTy.packing .f32)

variable [Facts₀]

def dot_S1000x8_S8x16_S1000x16_1_0_0_1_n_n : DotDims S1000x8 S8x16 S1000x16 where
  lhsContracting := [1]
  rhsContracting := [0]
  lhsNonContracting := [0]
  rhsNonContracting := [1]
  lhsBatch := []
  rhsBatch := []
  wf := dot_S1000x8_S8x16_S1000x16_1_0_0_1_n_n_wf
def dot_S1000x16_S16x32_S1000x32_1_0_0_1_n_n : DotDims S1000x16 S16x32 S1000x32 where
  lhsContracting := [1]
  rhsContracting := [0]
  lhsNonContracting := [0]
  rhsNonContracting := [1]
  lhsBatch := []
  rhsBatch := []
  wf := dot_S1000x16_S16x32_S1000x32_1_0_0_1_n_n_wf
def dot_S2048x125_S125x256_S2048x256_1_0_0_1_n_n : DotDims S2048x125 S125x256 S2048x256 where
  lhsContracting := [1]
  rhsContracting := [0]
  lhsNonContracting := [0]
  rhsNonContracting := [1]
  lhsBatch := []
  rhsBatch := []
  wf := dot_S2048x125_S125x256_S2048x256_1_0_0_1_n_n_wf

abbrev win0_0 : Pipeline.Window sig grid0 :=
  Pipeline.Window.ofSpec (Memref.whole main_v18) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S125x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S125x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152 : Shape := ⟨1, ![2097152]⟩
abbrev S1000x8 : Shape := ⟨2, ![1000, 8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S1000x32 : Shape := ⟨2, ![1000, 32]⟩
abbrev S_ : Shape := ⟨0, ![]⟩
abbrev S2097152x1 : Shape := ⟨2, ![2097152, 1]⟩
abbrev S2097152x8 : Shape := ⟨2, ![2097152, 8]⟩
abbrev S2097152x16 : Shape := ⟨2, ![2097152, 16]⟩
abbrev S1x16 : Shape := ⟨2, ![1, 16]⟩
abbrev S2097152x32 : Shape := ⟨2, ![2097152, 32]⟩
abbrev S1x32 : Shape := ⟨2, ![1, 32]⟩

abbrev nBuf : Space → Nat
  | .hbm => 40
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S1000x8, .f32⟩
  | .hbm, ⟨2, _⟩ => ⟨S8x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1000x32, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152x8, .f32⟩
  | .hbm, ⟨16, _⟩ => ⟨S2097152x16, .f32⟩
  | .hbm, ⟨17, _⟩ => ⟨S1x16, .f32⟩
  | .hbm, ⟨18, _⟩ => ⟨S2097152x16, .f32⟩
  | .hbm, ⟨19, _⟩ => ⟨S2097152x16, .f32⟩
  | .hbm, ⟨20, _⟩ => ⟨S_, .f32⟩
  | .hbm, ⟨21, _⟩ => ⟨S2097152x16, .f32⟩
  | .hbm, ⟨22, _⟩ => ⟨S2097152x16, .f32⟩
  | .hbm, ⟨23, _⟩ => ⟨S2097152x32, .f32⟩
  | .hbm, ⟨24, _⟩ => ⟨S1x32, .f32⟩
  | .hbm, ⟨25, _⟩ => ⟨S2097152x32, .f32⟩
  | .hbm, ⟨26, _⟩ => ⟨S2097152x32, .f32⟩
  | .hbm, ⟨27, _⟩ => ⟨S_, .i32⟩
  | .hbm, ⟨28, _⟩ => ⟨S2097152, .i32⟩
  | .hbm, ⟨29, _⟩ => ⟨S2097152, .i1⟩
  | .hbm, ⟨30, _⟩ => ⟨S_, .i32⟩
  | .hbm, ⟨31, _⟩ => ⟨S2097152, .i32⟩
  | .hbm, ⟨32, _⟩ => ⟨S2097152, .i32⟩
  | .hbm, ⟨33, _⟩ => ⟨S2097152, .i32⟩
  | .hbm, ⟨34, _⟩ => ⟨S2097152x1, .i32⟩
  | .hbm, ⟨35, _⟩ => ⟨S2097152x32, .f32⟩
  | .hbm, ⟨36, _⟩ => ⟨S_, .f32⟩
  | .hbm, ⟨37, _⟩ => ⟨S2097152x32, .f32⟩
  | .hbm, ⟨38, _⟩ => ⟨S2097152x32, .f32⟩
  | .hbm, ⟨39, _⟩ => ⟨S2097152x32, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  gather_S1000x8_S2097152x1_S2097152x8_1_0_n_n_0_1_18_wf : GatherDims.WF S1000x8 S2097152x1 S2097152x8 [1] [0] [] [0] [] 1 ![1, 8]
  dot_S2097152x8_S8x16_S2097152x16_1_0_0_1_n_n_wf : DotDims.WF S2097152x8 S8x16 S2097152x16 [1] [0] [0] [1] [] []
  dot_S2097152x16_S16x32_S2097152x32_1_0_0_1_n_n_wf : DotDims.WF S2097152x16 S16x32 S2097152x32 [1] [0] [0] [1] [] []
  gather_S1000x32_S2097152x1_S2097152x32_1_0_n_n_0_1_132_wf : GatherDims.WF S1000x32 S2097152x1 S2097152x32 [1] [0] [] [0] [] 1 ![1, 32]

variable [Facts₀]

def gather_S1000x8_S2097152x1_S2097152x8_1_0_n_n_0_1_18 : GatherDims S1000x8 S2097152x1 S2097152x8 where
  offsetDims := [1]
  collapsedSliceDims := [0]
  operandBatchingDims := []
  startIndicesBatchingDims := []
  startIndexMap := [0]
  indexVectorDim := 1
  sliceSizes := ![1, 8]
  wf := gather_S1000x8_S2097152x1_S2097152x8_1_0_n_n_0_1_18_wf
def dot_S2097152x8_S8x16_S2097152x16_1_0_0_1_n_n : DotDims S2097152x8 S8x16 S2097152x16 where
  lhsContracting := [1]
  rhsContracting := [0]
  lhsNonContracting := [0]
  rhsNonContracting := [1]
  lhsBatch := []
  rhsBatch := []
  wf := dot_S2097152x8_S8x16_S2097152x16_1_0_0_1_n_n_wf
def dot_S2097152x16_S16x32_S2097152x32_1_0_0_1_n_n : DotDims S2097152x16 S16x32 S2097152x32 where
  lhsContracting := [1]
  rhsContracting := [0]
  lhsNonContracting := [0]
  rhsNonContracting := [1]
  lhsBatch := []
  rhsBatch := []
  wf := dot_S2097152x16_S16x32_S2097152x32_1_0_0_1_n_n_wf
def gather_S1000x32_S2097152x1_S2097152x32_1_0_n_n_0_1_132 : GatherDims S1000x32 S2097152x1 S2097152x32 where
  offsetDims := [1]
  collapsedSliceDims := [0]
  operandBatchingDims := []
  startIndicesBatchingDims := []
  startIndexMap := [0]
  indexVectorDim := 1
  sliceSizes := ![1, 32]
  wf := gather_S1000x32_S2097152x1_S2097152x32_1_0_n_n_0_1_132_wf

class Facts : Prop extends Facts₀ where

variable [Facts]
-- ==== Proof.Spec.lean ====
/-
  The function both programs compute, stated once over the argument arrays.

  An index word selects a row of a 1000-row table: read as a signed integer and clamped into 0..999
  (`rowOf`). The table itself (`table`) is, for row n and column j,
      ( Σ_k relu( Σ_a vars[n,a]·W1[a,k] + b1[k] ) · W2[k,j] + b2[j] ) + c·emb[n,j],
  with c the f32 constant the programs carry (kept as its word; never evaluated) and relu x = max x 0
  (the zero kept as its word as well). The result array `G` at (r, j) is the table at row
  `rowOf (idx r)`, column j.
-/
import Idealize.ShloMosaic.PureOps.Ideal
import Idealize.ShloMosaic.Lib.ValueIdx

noncomputable section

namespace Cert.Spec

open Idealize.ShloMosaic Idealize.ShloMosaic.ValueIdx
open scoped BigOperators

/-- The row of a 1000-row table that a 32-bit index word selects: its signed value clamped into 0..999. -/
def rowOf (w : BitVec 32) : Fin 1000 := ⟨min w.toInt.toNat 999, by omega⟩

theorem rowOf_val (w : BitVec 32) : (rowOf w).val = min w.toInt.toNat 999 := rfl

/-- The scale of the residual term, as the programs' f32 word. -/
def cRes : EReal := Ideal.ofBits .f32 0x3DCCCCCD#32

/-- The zero the rectifier compares with, as the programs' f32 word. -/
def cZero : EReal := Ideal.ofBits .f32 0x00000000#32

/-- The hidden layer at row n, unit k: relu of the affine map of the row's 8 variables. -/
def hidden (vars : (⟨2, ![1000, 8]⟩ : Shape).Idx → EReal) (W1 : (⟨2, ![8, 16]⟩ : Shape).Idx → EReal)
    (b1 : (⟨1, ![16]⟩ : Shape).Idx → EReal) (n : Fin 1000) (k : Fin 16) : EReal :=
  max ((∑ a : Fin 8, vars (ix2 n a) * W1 (ix2 a k)) + b1 (ix1 k)) cZero

/-- The table: the second affine map of the hidden layer plus the scaled embedding row. -/
def table (vars : (⟨2, ![1000, 8]⟩ : Shape).Idx → EReal) (W1 : (⟨2, ![8, 16]⟩ : Shape).Idx → EReal)
    (b1 : (⟨1, ![16]⟩ : Shape).Idx → EReal) (W2 : (⟨2, ![16, 32]⟩ : Shape).Idx → EReal)
    (b2 : (⟨1, ![32]⟩ : Shape).Idx → EReal) (emb : (⟨2, ![1000, 32]⟩ : Shape).Idx → EReal)
    (n : Fin 1000) (j : Fin 32) : EReal :=
  ((∑ k : Fin 16, hidden vars W1 b1 n k * W2 (ix2 k j)) + b2 (ix1 j)) + cRes * emb (ix2 n j)

/-- The result array: row r is the table's row selected by the r-th index word. -/
def G (idx : (⟨1, ![2097152]⟩ : Shape).Idx → BitVec 32)
    (vars : (⟨2, ![1000, 8]⟩ : Shape).Idx → EReal) (W1 : (⟨2, ![8, 16]⟩ : Shape).Idx → EReal)
    (b1 : (⟨1, ![16]⟩ : Shape).Idx → EReal) (W2 : (⟨2, ![16, 32]⟩ : Shape).Idx → EReal)
    (b2 : (⟨1, ![32]⟩ : Shape).Idx → EReal) (emb : (⟨2, ![1000, 32]⟩ : Shape).Idx → EReal) :
    (⟨2, ![2097152, 32]⟩ : Shape).Idx → EReal :=
  fun i => table vars W1 b1 W2 b2 emb (rowOf (idx (ix1 (i 0)))) (i 1)

end Cert.Spec

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.LibDotRead.lean ====
/-
  A matrix product's sum, re-indexed by the contracted coordinate.

  A contraction of an M×K array with a K×N array over the one shared axis is, at output position (p, q),
  a sum over the contraction's index set. That set has one axis of extent K, so the sum is the sum over
  k < K of the left operand at (p, k) times the right operand at (k, q) — provided the dimension numbers
  send output row p to the left operand's row, the contracted coordinate to the left operand's column and
  the right operand's row, and output column q to the right operand's column. Those four facts are taken
  as hypotheses: for a literal record each is a one-line computation.
-/
import Idealize.ShloMosaic.PureOps.Ideal.Laws
import Idealize.ShloMosaic.Lib.ValueIdx

noncomputable section

namespace DotRead

open Idealize.ShloMosaic Idealize.ShloMosaic.ValueIdx
open scoped BigOperators

/-- The sum over a one-axis contraction index, written over the axis's coordinate. -/
theorem sum_contr {M K N : Nat} (d : DotDims ⟨2, ![M, K]⟩ ⟨2, ![K, N]⟩ ⟨2, ![M, N]⟩)
    (hr : d.contr.rank = 1) (hs : d.contr.size ⟨0, by omega⟩ = K)
    (h00 : ∀ (j : (⟨2, ![M, N]⟩ : Shape).Idx) (k : d.contr.Idx), (d.lhsIdx j k 0).val = (j 0).val)
    (h01 : ∀ (j : (⟨2, ![M, N]⟩ : Shape).Idx) (k : d.contr.Idx), (d.lhsIdx j k 1).val = (k ⟨0, by omega⟩).val)
    (h10 : ∀ (j : (⟨2, ![M, N]⟩ : Shape).Idx) (k : d.contr.Idx), (d.rhsIdx j k 0).val = (k ⟨0, by omega⟩).val)
    (h11 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k)
      = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact h00 _ _
    | ⟨1, _⟩ => exact (h01 _ _).trans hk)
  have er : d.rhsIdx (ix2 p q) ((contrEquiv1 d K hr hs).symm k) = ix2 k q := funext fun a => Fin.ext (by
    match a with
    | ⟨0, _⟩ => exact (h10 _ _).trans hk
    | ⟨1, _⟩ => exact h11 _ _)
  rw [el, er]

end DotRead

end
-- ==== Proof.HostTerms.lean ====
/-
  What the host computes before the kernel is launched, as three arrays of the arguments, each read at an index.

  • The index column: every index word clamped into 0..999 (first the signed maximum with 0, then the signed
    minimum with 999), laid out as a 2097152×1 column. A clamped word is the natural number `rowOf w`.
  • The table: for each of the 1000 rows the two-layer map of the row's variables plus the scaled embedding
    row — entry (n, j) is the specification's `table … n j` — re-laid row-major as 125 groups of 256 lanes:
    group g, lane l holds row 8g + l/32, column l mod 32.
  • The table's two parts: the first part is the table itself (a change of float format is the identity on
    extended reals); the second is the table minus the first part, entry by entry t − t, which is 0 wherever
    t is a real number.
-/
import proofs.«416802_j32787780337875_3_alg».proof.Proof.Gen.KernelIdeal
import proofs.«416802_j32787780337875_3_alg».proof.Proof.Spec
import proofs.«416802_j32787780337875_3_alg».proof.Proof.LibIdealFinite
import proofs.«416802_j32787780337875_3_alg».proof.Proof.LibDotRead
import Idealize.ShloMosaic.Lib.Pipeline.Value
import Idealize.ShloMosaic.Lib.ValueIdx
import Idealize.ShloMosaic.Lib.WordArith
import Idealize.ShloMosaic.PureOps.Ideal
import Idealize.ShloMosaic.PureOps.Ideal.Laws

noncomputable section

namespace Cert.KernelIdeal.HostK

open Cert.KernelIdeal Cert.KernelIdeal.Facts₀ Idealize.ShloMosaic Idealize.ShloMosaic.ValueIdx
open scoped BigOperators

/-! ## The three arrays -/

/-- The index words clamped into 0..999, as a column. -/
def clipCol (a0 : IVec S2097152 32) : IVec S2097152x1 32 :=
  shapeCast S2097152x1
    (minsi (broadcastInDim S2097152 ![] bcast_S_S2097152 (constantI S_ 32 999#32))
      (maxsi (broadcastInDim S2097152 ![] bcast_S_S2097152 (constantI S_ 32 0#32)) a0))
    shapeCasts_S2097152_S2097152x1

/-- The first affine map: the rows' variables times the first weights, plus the first bias along every row. -/
def lin1 (a1 : FVec Ideal S1000x8 .f32) (a2 : FVec Ideal S8x16 .f32) (a3 : FVec Ideal S16 .f32) : FVec Ideal S1000x16 .f32 :=
  addf (Host.dotGeneral (F := Ideal) dot_S1000x8_S8x16_S1000x16_1_0_0_1_n_n none a1 a2)
    (broadcastInDim S1000x16 ![0, 1] bcast_S1x16_S1000x16_0_1 (broadcastInDim S1x16 ![1] bcast_S16_S1x16_1 a3))

/-- The hidden layer: the rectified first affine map. -/
def hid (a1 : FVec Ideal S1000x8 .f32) (a2 : FVec Ideal S8x16 .f32) (a3 : FVec Ideal S16 .f32) : FVec Ideal S1000x16 .f32 :=
  maximumf (lin1 a1 a2 a3) (broadcastInDim S1000x16 ![] bcast_S_S1000x16 (constant (F := Ideal) S_ .f32 0x00000000#32))

/-- The second affine map of the hidden layer. -/
def lin2 (a1 : FVec Ideal S1000x8 .f32) (a2 : FVec Ideal S8x16 .f32) (a3 : FVec Ideal S16 .f32)
    (a4 : FVec Ideal S16x32 .f32) (a5 : FVec Ideal S32 .f32) : FVec Ideal S1000x32 .f32 :=
  addf (Host.dotGeneral (F := Ideal) dot_S1000x16_S16x32_S1000x32_1_0_0_1_n_n none (hid a1 a2 a3) a4)
    (broadcastInDim S1000x32 ![0, 1] bcast_S1x32_S1000x32_0_1 (broadcastInDim S1x32 ![1] bcast_S32_S1x32_1 a5))

/-- The 1000×32 table: the second affine map plus the scaled embedding. -/
def comb (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) : FVec Ideal S1000x32 .f32 :=
  addf (lin2 a1 a2 a3 a4 a5)
    (mulf (broadcastInDim S1000x32 ![] bcast_S_S1000x32 (constant (F := Ideal) S_ .f32 0x3DCCCCCD#32)) a6)

/-- The table re-laid as 125 groups of 256 lanes. -/
def tg (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) : FVec Ideal S125x256 .f32 :=
  shapeCast S125x256 (comb a1 a2 a3 a4 a5 a6) shapeCasts_S1000x32_S125x256

/-- Its first part, in the narrow format. -/
def tgHi (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) : FVec Ideal S125x256 .bf16 :=
  truncf .bf16 (tg a1 a2 a3 a4 a5 a6) bitsLt_bf16_f32

/-- Its second part: what the first part leaves, in the narrow format. -/
def tgLo (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) : FVec Ideal S125x256 .bf16 :=
  truncf .bf16 (subf (tg a1 a2 a3 a4 a5 a6) (extf .f32 (tgHi a1 a2 a3 a4 a5 a6) bitsLt_bf16_f32)) bitsLt_bf16_f32

/-! ## The clamp, word by word -/

/-- The signed maximum with 0 followed by the signed minimum with 999 is the word's signed value clamped into 0..999. -/
theorem clipWord (w : BitVec 32) : IntOp.minsi 999#32 (IntOp.maxsi 0#32 w) = BitVec.ofNat 32 (Cert.Spec.rowOf w).val := by
  apply BitVec.eq_of_toNat_eq
  have hm : (IntOp.maxsi 0#32 w).toNat = w.toInt.toNat := WordArith.toNat_maxsi_zero w
  have hlt : w.toInt < 2 ^ 31 := by have := BitVec.toInt_lt (x := w); simpa using this
  have hb : (IntOp.maxsi 0#32 w).toNat < 2 ^ 31 := by rw [hm]; omega
  have h9 : (999#32 : BitVec 32).toNat = 999 := by decide
  rw [WordArith.toNat_minsi_of_lt _ _ (by decide) hb, hm, Cert.Spec.rowOf_val, h9]
  simp only [BitVec.toNat_ofNat]
  omega

/-- Row r of the clamped column is the r-th index word's row number, as a word. -/
theorem clipCol_apply (a0 : IVec S2097152 32) (r : Fin 2097152) :
    clipCol a0 (ix2 r (0 : Fin 1)) = BitVec.ofNat 32 (Cert.Spec.rowOf (a0 (ix1 r))).val := by
  unfold clipCol
  refine (shapeCast_apply _ shapeCasts_S2097152_S2097152x1 (ix2 r (0 : Fin 1)) (ix1 r) (by
    rw [Shape.rowMajor_val_one, Shape.rowMajor_val_two]; show r.val = r.val * 1 + 0; omega)).trans ?_
  exact clipWord (a0 (ix1 r))

/-! ## The dimension numbers of the two host products -/

theorem d1_l0 (j : S1000x16.Idx) (k : dot_S1000x8_S8x16_S1000x16_1_0_0_1_n_n.contr.Idx) : (dot_S1000x8_S8x16_S1000x16_1_0_0_1_n_n.lhsIdx j k 0).val = (j 0).val := by
  unfold DotDims.lhsIdx
  rw [dif_neg (show ¬(0 : Fin S1000x8.rank) ∈ dot_S1000x8_S8x16_S1000x16_1_0_0_1_n_n.lhsBatch by decide), dif_pos (show (0 : Fin S1000x8.rank) ∈ dot_S1000x8_S8x16_S1000x16_1_0_0_1_n_n.lhsNonContracting by decide)]
  rfl
theorem d1_l1 (j : S1000x16.Idx) (k : dot_S1000x8_S8x16_S1000x16_1_0_0_1_n_n.contr.Idx) : (dot_S1000x8_S8x16_S1000x16_1_0_0_1_n_n.lhsIdx j k 1).val = (k ⟨0, by decide⟩).val :=
  dot_S1000x8_S8x16_S1000x16_1_0_0_1_n_n.lhsIdx_val_of_single rfl j k
theorem d1_r0 (j : S1000x16.Idx) (k : dot_S1000x8_S8x16_S1000x16_1_0_0_1_n_n.contr.Idx) : (dot_S1000x8_S8x16_S1000x16_1_0_0_1_n_n.rhsIdx j k 0).val = (k ⟨0, by decide⟩).val :=
  dot_S1000x8_S8x16_S1000x16_1_0_0_1_n_n.rhsIdx_val_of_single rfl j k
theorem d1_r1 (j : S1000x16.Idx) (k : dot_S1000x8_S8x16_S1000x16_1_0_0_1_n_n.contr.Idx) : (dot_S1000x8_S8x16_S1000x16_1_0_0_1_n_n.rhsIdx j k 1).val = (j 1).val := by
  unfold DotDims.rhsIdx
  rw [dif_neg (show ¬(1 : Fin S8x16.rank) ∈ dot_S1000x8_S8x16_S1000x16_1_0_0_1_n_n.rhsBatch by decide), dif_pos (show (1 : Fin S8x16.rank) ∈ dot_S1000x8_S8x16_S1000x16_1_0_0_1_n_n.rhsNonContracting by decide)]
  rfl

theorem d2_l0 (j : S1000x32.Idx) (k : dot_S1000x16_S16x32_S1000x32_1_0_0_1_n_n.contr.Idx) : (dot_S1000x16_S16x32_S1000x32_1_0_0_1_n_n.lhsIdx j k 0).val = (j 0).val := by
  unfold DotDims.lhsIdx
  rw [dif_neg (show ¬(0 : Fin S1000x16.rank) ∈ dot_S1000x16_S16x32_S1000x32_1_0_0_1_n_n.lhsBatch by decide), dif_pos (show (0 : Fin S1000x16.rank) ∈ dot_S1000x16_S16x32_S1000x32_1_0_0_1_n_n.lhsNonContracting by decide)]
  rfl
theorem d2_l1 (j : S1000x32.Idx) (k : dot_S1000x16_S16x32_S1000x32_1_0_0_1_n_n.contr.Idx) : (dot_S1000x16_S16x32_S1000x32_1_0_0_1_n_n.lhsIdx j k 1).val = (k ⟨0, by decide⟩).val :=
  dot_S1000x16_S16x32_S1000x32_1_0_0_1_n_n.lhsIdx_val_of_single rfl j k
theorem d2_r0 (j : S1000x32.Idx) (k : dot_S1000x16_S16x32_S1000x32_1_0_0_1_n_n.contr.Idx) : (dot_S1000x16_S16x32_S1000x32_1_0_0_1_n_n.rhsIdx j k 0).val = (k ⟨0, by decide⟩).val :=
  dot_S1000x16_S16x32_S1000x32_1_0_0_1_n_n.rhsIdx_val_of_single rfl j k
theorem d2_r1 (j : S1000x32.Idx) (k : dot_S1000x16_S16x32_S1000x32_1_0_0_1_n_n.contr.Idx) : (dot_S1000x16_S16x32_S1000x32_1_0_0_1_n_n.rhsIdx j k 1).val = (j 1).val := by
  unfold DotDims.rhsIdx
  rw [dif_neg (show ¬(1 : Fin S16x32.rank) ∈ dot_S1000x16_S16x32_S1000x32_1_0_0_1_n_n.rhsBatch by decide), dif_pos (show (1 : Fin S16x32.rank) ∈ dot_S1000x16_S16x32_S1000x32_1_0_0_1_n_n.rhsNonContracting by decide)]
  rfl

/-! ## The table at an index -/

theorem lin1_apply (a1 : FVec Ideal S1000x8 .f32) (a2 : FVec Ideal S8x16 .f32) (a3 : FVec Ideal S16 .f32) (n : Fin 1000) (k : Fin 16) :
    lin1 a1 a2 a3 (ix2 n k) = (∑ a : Fin 8, a1 (ix2 n a) * a2 (ix2 a k)) + a3 (ix1 k) := by
  unfold lin1
  rw [addf_apply]
  congr 1
  · simp only [Host.dotGeneral]
    rw [Ideal.dotGeneral_apply]
    exact DotRead.sum_contr dot_S1000x8_S8x16_S1000x16_1_0_0_1_n_n rfl rfl d1_l0 d1_l1 d1_r0 d1_r1 a1 a2 n k
  · refine (broadcastInDim_apply _ bcast_S1x16_S1000x16_0_1 _ (ix2 n k) (ix2 (0 : Fin 1) k) (fun a => match a with
      | ⟨0, _⟩ => by show 0 = if (1 : Nat) = 1 then 0 else n.val; rw [if_pos rfl]
      | ⟨1, _⟩ => by show k.val = if (16 : Nat) = 1 then 0 else k.val; rw [if_neg (by decide)])).trans ?_
    exact broadcastInDim_apply _ bcast_S16_S1x16_1 a3 (ix2 (0 : Fin 1) k) (ix1 k) (fun a => match a with
      | ⟨0, _⟩ => by show k.val = if (16 : Nat) = 1 then 0 else k.val; rw [if_neg (by decide)])

theorem hid_apply (a1 : FVec Ideal S1000x8 .f32) (a2 : FVec Ideal S8x16 .f32) (a3 : FVec Ideal S16 .f32) (n : Fin 1000) (k : Fin 16) :
    hid a1 a2 a3 (ix2 n k) = Cert.Spec.hidden a1 a2 a3 n k := by
  unfold hid Cert.Spec.hidden Cert.Spec.cZero
  rw [maximumf_apply, lin1_apply]
  congr 1

theorem lin2_apply (a1 : FVec Ideal S1000x8 .f32) (a2 : FVec Ideal S8x16 .f32) (a3 : FVec Ideal S16 .f32)
    (a4 : FVec Ideal S16x32 .f32) (a5 : FVec Ideal S32 .f32) (n : Fin 1000) (j : Fin 32) :
    lin2 a1 a2 a3 a4 a5 (ix2 n j) = (∑ k : Fin 16, Cert.Spec.hidden a1 a2 a3 n k * a4 (ix2 k j)) + a5 (ix1 j) := by
  unfold lin2
  rw [addf_apply]
  congr 1
  · simp only [Host.dotGeneral]
    rw [Ideal.dotGeneral_apply]
    refine (DotRead.sum_contr dot_S1000x16_S16x32_S1000x32_1_0_0_1_n_n rfl rfl d2_l0 d2_l1 d2_r0 d2_r1 (hid a1 a2 a3) a4 n j).trans ?_
    exact Finset.sum_congr rfl fun k _ => by rw [hid_apply]
  · refine (broadcastInDim_apply _ bcast_S1x32_S1000x32_0_1 _ (ix2 n j) (ix2 (0 : Fin 1) j) (fun a => match a with
      | ⟨0, _⟩ => by show 0 = if (1 : Nat) = 1 then 0 else n.val; rw [if_pos rfl]
      | ⟨1, _⟩ => by show j.val = if (32 : Nat) = 1 then 0 else j.val; rw [if_neg (by decide)])).trans ?_
    exact broadcastInDim_apply _ bcast_S32_S1x32_1 a5 (ix2 (0 : Fin 1) j) (ix1 j) (fun a => match a with
      | ⟨0, _⟩ => by show j.val = if (32 : Nat) = 1 then 0 else j.val; rw [if_neg (by decide)])

/-- Entry (n, j) of the host's table is the specification's. -/
theorem comb_apply (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) (n : Fin 1000) (j : Fin 32) :
    comb a1 a2 a3 a4 a5 a6 (ix2 n j) = Cert.Spec.table a1 a2 a3 a4 a5 a6 n j := by
  unfold comb Cert.Spec.table Cert.Spec.cRes
  rw [addf_apply, lin2_apply, mulf_apply]
  congr 2

/-- Group g, lane l of the re-laid table is row 8g + l/32, column l mod 32. -/
theorem tg_apply (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) (g : Fin 125) (l : Fin 256) :
    tg a1 a2 a3 a4 a5 a6 (ix2 g l)
      = Cert.Spec.table a1 a2 a3 a4 a5 a6 (⟨8 * g.val + l.val / 32, by omega⟩ : Fin 1000) (⟨l.val % 32, by omega⟩ : Fin 32) := by
  unfold tg
  refine (shapeCast_apply _ shapeCasts_S1000x32_S125x256 (ix2 g l)
    (ix2 (⟨8 * g.val + l.val / 32, by omega⟩ : Fin 1000) (⟨l.val % 32, by omega⟩ : Fin 32)) (by
      rw [Shape.rowMajor_val_two, Shape.rowMajor_val_two]
      show (8 * g.val + l.val / 32) * 32 + l.val % 32 = g.val * 256 + l.val
      omega)).trans ?_
  exact comb_apply a1 a2 a3 a4 a5 a6 _ _

end Cert.KernelIdeal.HostK

end
-- ==== Proof.HostV.lean ====
/-
  What the kernel's three input windows stage: the arrays the region finds after the host's operations.

  The first window's array is the clamped index column, the second and third the two parts of the re-laid
  table, each the stated function of the arguments as the program was launched with them: read off the host
  operations in program order.
-/
import proofs.«416802_j32787780337875_3_alg».proof.Proof.Gen.KernelIdeal.Frame
import proofs.«416802_j32787780337875_3_alg».proof.Proof.HostTerms
import Idealize.ShloMosaic.Lib.StableHlo.Run

noncomputable section

namespace Cert.KernelIdeal.HostK

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The index column the region finds: the launched index words, clamped. -/
theorem V_idx (c : Dev nD) :
    (V m c main_v18 : S2097152x1.Idx → BitVec 32) = clipCol (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 2000000 in
/-- The table's first part the region finds. -/
theorem V_hi (c : Dev nD) :
    (V m c main_v14 : S125x256.Idx → EReal)
      = tgHi (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

set_option maxHeartbeats 2000000 in
/-- The table's second part the region finds. -/
theorem V_lo (c : Dev nD) :
    (V m c main_v17 : S125x256.Idx → EReal)
      = tgLo (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

end Cert.KernelIdeal.HostK

end
-- ==== Proof.HostFin.lean ====
/-
  With real arguments the host's table is real, so its second part vanishes.

  Sums, products and maxima of real numbers are real, a contraction is a finite sum of products, broadcasting
  only repeats entries, and the two f32 constants of the table (0 and the binary32 number nearest 1/10,
  13421773 · 2^(-27)) are real: so every entry t of the table is a real number whenever every entry of the six
  float arguments is. The table's second part is t − t entry by entry, and for a real t that is 0. (For an
  infinite t it would not be: this is the one place the arguments' finiteness is used.)
-/
import proofs.«416802_j32787780337875_3_alg».proof.Proof.HostTerms

noncomputable section

namespace Cert.KernelIdeal.HostK

open Cert.KernelIdeal Cert.KernelIdeal.Facts₀ Idealize.ShloMosaic Idealize.ShloMosaic.ValueIdx IdealFinite

/-- The larger of two reals is real. -/
theorem allFin_maximumf {S : Shape} {φ : FTy} {x y : FVec Ideal S φ} (hx : AllFin x) (hy : AllFin y) :
    AllFin (Idealize.ShloMosaic.maximumf (F := Ideal) x y) := fun i => by
  obtain ⟨a, ha⟩ := hx i
  obtain ⟨b, hb⟩ := hy i
  refine ⟨max a b, ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The binary32 number nearest 1/10: 13421773 · 2^(-27). -/
theorem ofBits_3DCCCCCD : Ideal.ofBits .f32 0x3DCCCCCD#32 = ((13421773 / 134217728 : ℝ) : EReal) := by
  simp [Ideal.ofBits, Ideal.ieee, -EReal.coe_mul]; norm_num

/-- Real arguments give a real table. -/
theorem comb_allFin {a1 : FVec Ideal S1000x8 .f32} {a2 : FVec Ideal S8x16 .f32} {a3 : FVec Ideal S16 .f32}
    {a4 : FVec Ideal S16x32 .f32} {a5 : FVec Ideal S32 .f32} {a6 : FVec Ideal S1000x32 .f32}
    (h1 : AllFin a1) (h2 : AllFin a2) (h3 : AllFin a3) (h4 : AllFin a4) (h5 : AllFin a5) (h6 : AllFin a6) :
    AllFin (comb a1 a2 a3 a4 a5 a6) := by
  unfold comb lin2 hid lin1
  exact AllFin.addf
    (AllFin.addf
      (AllFin.dotGeneral
        (allFin_maximumf
          (AllFin.addf (AllFin.dotGeneral h1 h2) (AllFin.broadcastInDim (AllFin.broadcastInDim h3)))
          (AllFin.broadcastInDim (AllFin.constant ⟨_, ofBits_00000000⟩)))
        h4)
      (AllFin.broadcastInDim (AllFin.broadcastInDim h5)))
    (AllFin.mulf (AllFin.broadcastInDim (AllFin.constant ⟨_, ofBits_3DCCCCCD⟩)) h6)

/-- The first part of the table is the table. -/
theorem tgHi_apply (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32) (g : Fin 125) (l : Fin 256) :
    tgHi a1 a2 a3 a4 a5 a6 (ix2 g l)
      = Cert.Spec.table a1 a2 a3 a4 a5 a6 (⟨8 * g.val + l.val / 32, by omega⟩ : Fin 1000) (⟨l.val % 32, by omega⟩ : Fin 32) :=
  tg_apply a1 a2 a3 a4 a5 a6 g l

/-- The second part of a real table is zero. -/
theorem tgLo_apply {a1 : FVec Ideal S1000x8 .f32} {a2 : FVec Ideal S8x16 .f32} {a3 : FVec Ideal S16 .f32}
    {a4 : FVec Ideal S16x32 .f32} {a5 : FVec Ideal S32 .f32} {a6 : FVec Ideal S1000x32 .f32}
    (h1 : AllFin a1) (h2 : AllFin a2) (h3 : AllFin a3) (h4 : AllFin a4) (h5 : AllFin a5) (h6 : AllFin a6)
    (g : Fin 125) (l : Fin 256) : tgLo a1 a2 a3 a4 a5 a6 (ix2 g l) = 0 := by
  have hfin : IsFin (tg a1 a2 a3 a4 a5 a6 (ix2 g l)) := by
    rw [tg_apply, ← comb_apply]
    exact comb_allFin h1 h2 h3 h4 h5 h6 _
  obtain ⟨r, hr⟩ := hfin
  show tg a1 a2 a3 a4 a5 a6 (ix2 g l) - tg a1 a2 a3 a4 a5 a6 (ix2 g l) = 0
  rw [hr, ← EReal.coe_sub, sub_self, EReal.coe_zero]

end Cert.KernelIdeal.HostK

end
-- ==== Proof.Payload.lean ====
/-
  The kernel body's arithmetic read at one index, at the ideal values.

  A row's index word n (0 ≤ n < 1000) is split as n = 8·hi + lo. A 0/1 row over the 125 groups, one exactly at
  group hi, is multiplied into the two 125×256 tables and the products are added, so lane c of the row holds
  T1[hi, c] + T2[hi, c]. Lanes outside the 32-lane block lo are replaced by zero, and three rotate-and-add steps
  (by 128, 64 and 32 lanes) leave in lane q < 32 the sum of the eight lanes q + 32·b, of which only b = lo is not
  the zero word. So the result at (p, q) is T1[hi, 32·lo + q] + T2[hi, 32·lo + q].
-/
import proofs.«416802_j32787780337875_3_alg».proof.Proof.Gen.KernelIdeal.Skeleton
import Idealize.ShloMosaic.Lib.Pipeline.Value
import Idealize.ShloMosaic.Lib.ValueIdx
import Idealize.ShloMosaic.Lib.KernelVsHost
import Idealize.ShloMosaic.Lib.Decide
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## Words: floor division by a positive constant, on one word -/

/-- The sign of the divisor d as the body computes it: (d > 0) − (d < 0). -/
def sgnW (d : BitVec 32) : BitVec 32 :=
  Scalar.subi (Scalar.extui (Scalar.cmpi .sgt d 0#32)) (Scalar.extui (Scalar.cmpi .slt d 0#32))

/-- Floor division of the word w by the constant d, as the body spells it: the quotient rounded toward zero, less one
    when the operands' signs differ and the remainder is not zero. -/
def floorDivW (d w : BitVec 32) : BitVec 32 :=
  Scalar.select
    (IntOp.andi
      (IntOp.cmpi .ne (IntOp.subi ((IntOp.cmpi .sgt w 0#32).setWidth 32) ((IntOp.cmpi .slt w 0#32).setWidth 32)) (sgnW d))
      (IntOp.cmpi .ne (IntOp.remsi .vector w d) 0#32))
    (IntOp.subi (IntOp.divsi .vector w d) 1#32)
    (IntOp.divsi .vector w d)

/-- The group of a word: its floor quotient by 8. -/
def hiW (w : BitVec 32) : BitVec 32 := floorDivW 8#32 w

/-- The position of a word inside its group: the word less eight times its group. -/
def loW (w : BitVec 32) : BitVec 32 := IntOp.subi w (IntOp.muli (hiW w) 8#32)

/-- The 32-lane block of a lane word: its floor quotient by 32. -/
def blkW (l : BitVec 32) : BitVec 32 := floorDivW 32#32 l

theorem hiW_ofNat : ∀ n : Fin 1000, hiW (BitVec.ofNat 32 n.val) = BitVec.ofNat 32 (n.val / 8) := by
  decide +kernel

theorem loW_ofNat : ∀ n : Fin 1000, loW (BitVec.ofNat 32 n.val) = BitVec.ofNat 32 (n.val % 8) := by
  decide +kernel

theorem blkW_ofNat : ∀ l : Fin 256, blkW (BitVec.ofNat 32 l.val) = BitVec.ofNat 32 (l.val / 32) := by
  decide +kernel

/-- Two small numbers have equal words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    have hb' : (BitVec.ofNat 32 a == BitVec.ofNat 32 b) = false := by
      rw [beq_eq_false_iff_ne]; exact hne
    show BitVec.ofBool (BitVec.ofNat 32 a == BitVec.ofNat 32 b) = 0#1
    rw [hb']; rfl

/-! ## The index column: the group and the position of row p -/

theorem pay2_eq (x0 : Vec Ideal S2048x1 .i32) : k0_pay2 (F := Ideal) x0 = x0 := by
  unfold k0_pay2
  exact shapeCast_self _ _

/-- The printed group column is the floor quotient by 8 of each index word. -/
theorem pay3_apply (x0 : Vec Ideal S2048x1 .i32) (i : S2048x1.Idx) :
    k0_pay3 (F := Ideal) x0 i = hiW (x0 i) := by
  unfold k0_pay3
  rw [pay2_eq]
  rfl

/-- The printed position column is each index word less eight times its group. -/
theorem pay4_apply (x0 : Vec Ideal S2048x1 .i32) (i : S2048x1.Idx) :
    k0_pay4 (F := Ideal) x0 i = loW (x0 i) := by
  unfold k0_pay4
  rw [pay2_eq]
  show IntOp.subi (x0 i) (IntOp.muli (k0_pay3 (F := Ideal) x0 i) 8#32) = _
  rw [pay3_apply]
  rfl

/-! ## The 0/1 row over the groups, and its product with a table -/

/-- The row of 125 group flags of each index word: 1 where the group's number is the word's group, else 0. -/
def oneHot (x0 : Vec Ideal S2048x1 .i32) : FVec Ideal S2048x125 .bf16 :=
  truncf .bf16 (sitofp .f32 (extui 32 (cmpi .eq
    (broadcastTo S2048x125 (k0_pay3 (F := Ideal) x0) broadcasts_S2048x1_S2048x125)
    (broadcastTo S2048x125 (iota .tc S1x125 32 [1] iota_S1x125_d1_w32) broadcasts_S1x125_S2048x125)) natLt_1_32)) bitsLt_bf16_f32

theorem oneHot_apply (x0 : Vec Ideal S2048x1 .i32) (p : Fin 2048) (g : Fin 125) (n : Fin 1000)
    (hx : x0 (ix2 p (0 : Fin 1)) = BitVec.ofNat 32 n.val) :
    oneHot x0 (ix2 p g) = if g.val = n.val / 8 then (1 : EReal) else 0 := by
  have h30 : broadcastTo S2048x125 (k0_pay3 (F := Ideal) x0) broadcasts_S2048x1_S2048x125 (ix2 p g)
      = BitVec.ofNat 32 (n.val / 8) := by
    refine (broadcastTo_apply _ _ (ix2 p g) (ix2 p (0 : Fin 1)) (by
      intro a
      match a with
      | ⟨0, _⟩ => rfl
      | ⟨1, _⟩ => rfl)).trans ?_
    rw [pay3_apply, hx, hiW_ofNat n]
  have h31 : broadcastTo S2048x125 (iota .tc S1x125 32 [1] iota_S1x125_d1_w32) broadcasts_S1x125_S2048x125 (ix2 p g)
      = BitVec.ofNat 32 g.val := by
    refine (broadcastTo_apply _ _ (ix2 p g) (ix2 (0 : Fin 1) g) (by
      intro a
      match a with
      | ⟨0, _⟩ => rfl
      | ⟨1, _⟩ => rfl)).trans ?_
    exact iota_single_apply .tc S1x125 32 1 _ _
  show ((((IntOp.cmpi .eq
      (broadcastTo S2048x125 (k0_pay3 (F := Ideal) x0) broadcasts_S2048x1_S2048x125 (ix2 p g))
      (broadcastTo S2048x125 (iota .tc S1x125 32 [1] iota_S1x125_d1_w32) broadcasts_S1x125_S2048x125 (ix2 p g))).setWidth 32).toInt : ℝ) : EReal) = _
  rw [h30, h31, cmpi_eq_ofNat _ _ (by have := n.isLt; omega) (by have := g.isLt; omega)]
  by_cases h : g.val = n.val / 8
  · rw [if_pos h.symm, if_pos h]
    have : ((1#1 : BitVec 1).setWidth 32).toInt = 1 := by decide
    rw [this]; simp
  · rw [if_neg (fun e => h e.symm), if_neg h]
    have : ((0#1 : BitVec 1).setWidth 32).toInt = 0 := by decide
    rw [this]; simp

theorem lhs_dot_0 (i : S2048x256.Idx) (q : dot_S2048x125_S125x256_S2048x256_1_0_0_1_n_n.contr.Idx) :
    (dot_S2048x125_S125x256_S2048x256_1_0_0_1_n_n.lhsIdx i q 0).val = (i 0).val := by
  unfold DotDims.lhsIdx
  rw [dif_neg (show ¬(0 : Fin S2048x125.rank) ∈ dot_S2048x125_S125x256_S2048x256_1_0_0_1_n_n.lhsBatch by decide), dif_pos (show (0 : Fin S2048x125.rank) ∈ dot_S2048x125_S125x256_S2048x256_1_0_0_1_n_n.lhsNonContracting by decide)]
  rfl
theorem lhs_dot_1 (i : S2048x256.Idx) (q : dot_S2048x125_S125x256_S2048x256_1_0_0_1_n_n.contr.Idx) :
    (dot_S2048x125_S125x256_S2048x256_1_0_0_1_n_n.lhsIdx i q 1).val = (q ⟨0, by decide⟩).val :=
  dot_S2048x125_S125x256_S2048x256_1_0_0_1_n_n.lhsIdx_val_of_single rfl i q
theorem rhs_dot_0 (i : S2048x256.Idx) (q : dot_S2048x125_S125x256_S2048x256_1_0_0_1_n_n.contr.Idx) :
    (dot_S2048x125_S125x256_S2048x256_1_0_0_1_n_n.rhsIdx i q 0).val = (q ⟨0, by decide⟩).val :=
  dot_S2048x125_S125x256_S2048x256_1_0_0_1_n_n.rhsIdx_val_of_single rfl i q
theorem rhs_dot_1 (i : S2048x256.Idx) (q : dot_S2048x125_S125x256_S2048x256_1_0_0_1_n_n.contr.Idx) :
    (dot_S2048x125_S125x256_S2048x256_1_0_0_1_n_n.rhsIdx i q 1).val = (i 1).val := by
  unfold DotDims.rhsIdx
  rw [dif_neg (show ¬(1 : Fin S125x256.rank) ∈ dot_S2048x125_S125x256_S2048x256_1_0_0_1_n_n.rhsBatch by decide), dif_pos (show (1 : Fin S125x256.rank) ∈ dot_S2048x125_S125x256_S2048x256_1_0_0_1_n_n.rhsNonContracting by decide)]
  rfl

/-- A product of a 2048×125 by a 125×256 array into the zero array, at (p, c): the sum over the 125 groups. -/
theorem matmul_zero_apply (A : FVec Ideal S2048x125 .bf16) (B : FVec Ideal S125x256 .bf16) (p : Fin 2048) (c : Fin 256) :
    matmul dot_S2048x125_S125x256_S2048x256_1_0_0_1_n_n none A B (constant (F := Ideal) S2048x256 .f32 0x00000000#32) (ix2 p c)
      = ∑ k : Fin 125, A (ix2 p k) * B (ix2 k c) := by
  simp only [matmul]
  rw [Ideal.matmul_constant_zero_apply, ← Equiv.sum_comp (contrEquiv1 dot_S2048x125_S125x256_S2048x256_1_0_0_1_n_n 125 rfl rfl).symm]
  refine Finset.sum_congr rfl fun k _ => ?_
  have hk := contrEquiv1_symm_val dot_S2048x125_S125x256_S2048x256_1_0_0_1_n_n 125 rfl rfl k
  have el : dot_S2048x125_S125x256_S2048x256_1_0_0_1_n_n.lhsIdx (ix2 p c) ((contrEquiv1 dot_S2048x125_S125x256_S2048x256_1_0_0_1_n_n 125 rfl rfl).symm k) = ix2 p k := funext fun a => Fin.ext (by
    match a with
    | ⟨0, _⟩ => exact lhs_dot_0 _ _
    | ⟨1, _⟩ => exact (lhs_dot_1 _ _).trans hk)
  have er : dot_S2048x125_S125x256_S2048x256_1_0_0_1_n_n.rhsIdx (ix2 p c) ((contrEquiv1 dot_S2048x125_S125x256_S2048x256_1_0_0_1_n_n 125 rfl rfl).symm k) = ix2 k c := funext fun a => Fin.ext (by
    match a with
    | ⟨0, _⟩ => exact (rhs_dot_0 _ _).trans hk
    | ⟨1, _⟩ => exact rhs_dot_1 _ _)
  rw [el, er]

/-- The 0/1 row of a word n times a table picks the table's row n / 8. -/
theorem oneHot_sum (x0 : Vec Ideal S2048x1 .i32) (B : FVec Ideal S125x256 .bf16) (p : Fin 2048) (c : Fin 256) (n : Fin 1000)
    (hx : x0 (ix2 p (0 : Fin 1)) = BitVec.ofNat 32 n.val) :
    ∑ k : Fin 125, oneHot x0 (ix2 p k) * B (ix2 k c) = B (ix2 (⟨n.val / 8, by omega⟩ : Fin 125) c) := by
  rw [Finset.sum_eq_single (⟨n.val / 8, by omega⟩ : Fin 125)]
  · rw [oneHot_apply x0 p _ n hx, if_pos rfl, one_mul]
  · intro k _ hk
    rw [oneHot_apply x0 p k n hx, if_neg (fun e => hk (Fin.ext e)), zero_mul]
  · intro h; exact absurd (Finset.mem_univ _) h

theorem pay5_eq (x0 : Vec Ideal S2048x1 .i32) (T1 T2 : FVec Ideal S125x256 .bf16) :
    k0_pay5 (F := Ideal) x0 T1 T2
      = addf (matmul dot_S2048x125_S125x256_S2048x256_1_0_0_1_n_n none (oneHot x0) (shapeCast S125x256 T1 shapeCasts_S125x256_S125x256) (constant (F := Ideal) S2048x256 .f32 0x00000000#32))
             (matmul dot_S2048x125_S125x256_S2048x256_1_0_0_1_n_n none (oneHot x0) (shapeCast S125x256 T2 shapeCasts_S125x256_S125x256) (constant (F := Ideal) S2048x256 .f32 0x00000000#32)) := rfl

/-- Lane c of row p after the two products: the two tables' entries at the word's group. -/
theorem stage1_apply (x0 : Vec Ideal S2048x1 .i32) (T1 T2 : FVec Ideal S125x256 .bf16) (p : Fin 2048) (c : Fin 256) (n : Fin 1000)
    (hx : x0 (ix2 p (0 : Fin 1)) = BitVec.ofNat 32 n.val) :
    k0_pay5 (F := Ideal) x0 T1 T2 (ix2 p c)
      = T1 (ix2 (⟨n.val / 8, by omega⟩ : Fin 125) c) + T2 (ix2 (⟨n.val / 8, by omega⟩ : Fin 125) c) := by
  rw [pay5_eq, addf_apply, matmul_zero_apply, matmul_zero_apply, shapeCast_self, shapeCast_self,
    oneHot_sum x0 T1 p c n hx, oneHot_sum x0 T2 p c n hx]

/-! ## The lane mask and the fold -/

/-- The 32-lane block of each of the 256 lanes, as the body computes it from the lane's number. -/
def laneBlk : IVec S1x256 32 :=
  have v43 : IVec S1x256 32 := iota .tc S1x256 32 [1] iota_S1x256_d1_w32
  have v45 : IVec S1x256 32 := divsi v43 (broadcast S1x256 32#32)
  select
    (andi
      (cmpi .ne
        (subi (extui 32 (cmpi .sgt v43 (broadcast S1x256 0#32)) natLt_1_32) (extui 32 (cmpi .slt v43 (broadcast S1x256 0#32)) natLt_1_32))
        (broadcast S1x256 (sgnW 32#32)))
      (cmpi .ne (remsi v43 (broadcast S1x256 32#32)) (broadcast S1x256 0#32)))
    (subi v45 (broadcast S1x256 1#32))
    v45

theorem laneBlk_apply (l : Fin 256) : laneBlk (ix2 (0 : Fin 1) l) = BitVec.ofNat 32 (l.val / 32) := by
  have hi : iota .tc S1x256 32 [1] iota_S1x256_d1_w32 (ix2 (0 : Fin 1) l) = BitVec.ofNat 32 l.val :=
    iota_single_apply .tc S1x256 32 1 _ _
  show floorDivW 32#32 (iota .tc S1x256 32 [1] iota_S1x256_d1_w32 (ix2 (0 : Fin 1) l)) = _
  rw [hi]
  exact blkW_ofNat l

/-- A row with the lanes outside the position's block replaced by the zero word. -/
def masked (lo : IVec S2048x1 32) (S : FVec Ideal S2048x256 .f32) : FVec Ideal S2048x256 .f32 :=
  select (cmpi .eq (broadcastTo S2048x256 laneBlk broadcasts_S1x256_S2048x256) (broadcastTo S2048x256 lo broadcasts_S2048x1_S2048x256))
    S (broadcast S2048x256 (Scalar.ofBits (F := Ideal) .f32 0x00000000#32))

theorem masked_apply (lo : IVec S2048x1 32) (S : FVec Ideal S2048x256 .f32) (p : Fin 2048) (l : Fin 256) (m : Nat) (hm : m < 8)
    (hlo : lo (ix2 p (0 : Fin 1)) = BitVec.ofNat 32 m) :
    masked lo S (ix2 p l) = if l.val / 32 = m then S (ix2 p l) else 0 := by
  have h68 : broadcastTo S2048x256 laneBlk broadcasts_S1x256_S2048x256 (ix2 p l) = BitVec.ofNat 32 (l.val / 32) := by
    refine (broadcastTo_apply _ _ (ix2 p l) (ix2 (0 : Fin 1) l) (by
      intro a
      match a with
      | ⟨0, _⟩ => rfl
      | ⟨1, _⟩ => rfl)).trans ?_
    exact laneBlk_apply l
  have h69 : broadcastTo S2048x256 lo broadcasts_S2048x1_S2048x256 (ix2 p l) = BitVec.ofNat 32 m := by
    refine (broadcastTo_apply _ _ (ix2 p l) (ix2 p (0 : Fin 1)) (by
      intro a
      match a with
      | ⟨0, _⟩ => rfl
      | ⟨1, _⟩ => rfl)).trans ?_
    exact hlo
  show Scalar.select (IntOp.cmpi .eq (broadcastTo S2048x256 laneBlk broadcasts_S1x256_S2048x256 (ix2 p l))
      (broadcastTo S2048x256 lo broadcasts_S2048x1_S2048x256 (ix2 p l))) (S (ix2 p l)) (Ideal.ofBits .f32 0x00000000#32) = _
  rw [h68, h69, cmpi_eq_ofNat _ _ (by have := l.isLt; omega) (by omega), Ideal.ofBits_zero_f32]
  by_cases h : l.val / 32 = m
  · rw [if_pos h, if_pos h, select_one]
  · rw [if_neg h, if_neg h, select_zero]

/-- The lane a rotation by s reads at lane l: s lanes back, around the end. -/
def rotLane (s : Nat) (l : Fin 256) : Fin 256 := ⟨(l.val + 256 - s) % 256, Nat.mod_lt _ (by decide)⟩

theorem rot_apply (sb : BitVec 32) (s : Nat) (hs : sb.toNat % 256 = s) (X : FVec Ideal S2048x256 .f32)
    (h : S2048x256.Rotates 1 none) (p : Fin 2048) (l : Fin 256) :
    dynamicRotate 1 sb none X h (ix2 p l) = X (ix2 p (rotLane s l)) :=
  dynamicRotate_apply (1 : Fin S2048x256.rank) sb X h (ix2 p l) (ix2 p (rotLane s l)) (by
    intro b
    match b with
    | ⟨0, _⟩ => rfl
    | ⟨1, _⟩ => show (l.val + 256 - s) % 256 = (l.val + 256 - sb.toNat % 256) % 256; rw [hs])

/-- A row plus itself rotated by s, at lane l. -/
theorem rotAdd_apply (sb : BitVec 32) (s : Nat) (hs : sb.toNat % 256 = s) (X : FVec Ideal S2048x256 .f32)
    (h : S2048x256.Rotates 1 none) (p : Fin 2048) (l : Fin 256) :
    addf X (dynamicRotate 1 sb none X h) (ix2 p l) = X (ix2 p l) + X (ix2 p (rotLane s l)) := by
  rw [addf_apply, rot_apply sb s hs]

/-- The three rotate-and-add steps and the cut to the first 32 lanes. -/
def fold3 (M : FVec Ideal S2048x256 .f32) : FVec Ideal S2048x32 .f32 :=
  have v74 : FVec Ideal S2048x256 .f32 := addf M (dynamicRotate 1 128#32 none M rotates_S2048x256_d1)
  have v76 : FVec Ideal S2048x256 .f32 := addf v74 (dynamicRotate 1 64#32 none v74 rotates_S2048x256_d1)
  have v78 : FVec Ideal S2048x256 .f32 := addf v76 (dynamicRotate 1 32#32 none v76 rotates_S2048x256_d1)
  extractStridedSlice S2048x32 ![0, 0] v78 slices_S2048x256_o0_0_S2048x32

theorem pay1_eq (lo : IVec S2048x1 32) (S : FVec Ideal S2048x256 .f32) :
    k0_pay1 (F := Ideal) lo S = fold3 (masked lo S) := rfl

/-- One of the first 32 lanes, as a lane of the 256. -/
def lane0 (q : Fin 32) : Fin 256 := ⟨q.val, by omega⟩

/-- The sum of eight lanes of a row that the three steps leave at lane l, in the order the steps add them. -/
def sum8 (f : Fin 256 → EReal) (l : Fin 256) : EReal :=
  ((f l + f (rotLane 128 l)) + (f (rotLane 64 l) + f (rotLane 128 (rotLane 64 l))))
    + ((f (rotLane 32 l) + f (rotLane 128 (rotLane 32 l)))
      + (f (rotLane 64 (rotLane 32 l)) + f (rotLane 128 (rotLane 64 (rotLane 32 l)))))

/-- Lane q < 32 after the fold is the sum of the eight lanes congruent to q modulo 32. -/
theorem fold3_apply (M : FVec Ideal S2048x256 .f32) (p : Fin 2048) (q : Fin 32) :
    fold3 M (ix2 p q) = sum8 (fun l => M (ix2 p l)) (lane0 q) := by
  unfold fold3 sum8
  refine (extractStridedSlice_apply _ _ _ (ix2 p q) (ix2 p (lane0 q)) (by
    intro a
    match a with
    | ⟨0, _⟩ => show p.val = 0 + p.val; omega
    | ⟨1, _⟩ => show q.val = 0 + q.val; omega)).trans ?_
  rw [rotAdd_apply 32#32 32 (by decide), rotAdd_apply 64#32 64 (by decide), rotAdd_apply 64#32 64 (by decide),
    rotAdd_apply 128#32 128 (by decide), rotAdd_apply 128#32 128 (by decide), rotAdd_apply 128#32 128 (by decide),
    rotAdd_apply 128#32 128 (by decide)]

/-- With every lane outside block m zero, the eight-lane sum at q is the one lane 32·m + q. -/
theorem fold_pick (f g : Fin 256 → EReal) (m : Nat) (hm : m < 8) (q : Fin 32)
    (hf : ∀ l : Fin 256, f l = if l.val / 32 = m then g l else 0) :
    sum8 f (lane0 q) = g ⟨32 * m + q.val, by omega⟩ := by
  have hq := q.isLt
  unfold sum8
  have e0 : lane0 q = ⟨32 * 0 + q.val, by omega⟩ := Fin.ext (by show q.val = 32 * 0 + q.val; omega)
  have e4 : rotLane 128 (lane0 q) = ⟨32 * 4 + q.val, by omega⟩ := Fin.ext (by show (q.val + 256 - 128) % 256 = 32 * 4 + q.val; omega)
  have e6 : rotLane 64 (lane0 q) = ⟨32 * 6 + q.val, by omega⟩ := Fin.ext (by show (q.val + 256 - 64) % 256 = 32 * 6 + q.val; omega)
  have e7 : rotLane 32 (lane0 q) = ⟨32 * 7 + q.val, by omega⟩ := Fin.ext (by show (q.val + 256 - 32) % 256 = 32 * 7 + q.val; omega)
  have e2 : rotLane 128 (⟨32 * 6 + q.val, by omega⟩ : Fin 256) = ⟨32 * 2 + q.val, by omega⟩ :=
    Fin.ext (by show (32 * 6 + q.val + 256 - 128) % 256 = 32 * 2 + q.val; omega)
  have e3 : rotLane 128 (⟨32 * 7 + q.val, by omega⟩ : Fin 256) = ⟨32 * 3 + q.val, by omega⟩ :=
    Fin.ext (by show (32 * 7 + q.val + 256 - 128) % 256 = 32 * 3 + q.val; omega)
  have e5 : rotLane 64 (⟨32 * 7 + q.val, by omega⟩ : Fin 256) = ⟨32 * 5 + q.val, by omega⟩ :=
    Fin.ext (by show (32 * 7 + q.val + 256 - 64) % 256 = 32 * 5 + q.val; omega)
  have e1 : rotLane 128 (⟨32 * 5 + q.val, by omega⟩ : Fin 256) = ⟨32 * 1 + q.val, by omega⟩ :=
    Fin.ext (by show (32 * 5 + q.val + 256 - 128) % 256 = 32 * 1 + q.val; omega)
  rw [e4, e6, e7, e2, e3, e5, e1, e0]
  have hb : ∀ (b : Nat) (hb : b < 8), f (⟨32 * b + q.val, by omega⟩ : Fin 256)
      = if b = m then g ⟨32 * b + q.val, by omega⟩ else 0 := by
    intro b hb
    rw [hf]
    have : (32 * b + q.val) / 32 = b := by omega
    show (if (32 * b + q.val) / 32 = m then _ else _) = _
    rw [this]
  rw [hb 0 (by omega), hb 4 (by omega), hb 6 (by omega), hb 2 (by omega), hb 7 (by omega), hb 3 (by omega),
    hb 5 (by omega), hb 1 (by omega)]
  interval_cases m <;> simp

/-! ## The body at one index -/

theorem pay_apply (x0 : Vec Ideal S2048x1 .i32) (T1 T2 : FVec Ideal S125x256 .bf16)
    (p : Fin 2048) (q : Fin 32) (n : Fin 1000)
    (hx : x0 (ix2 p (0 : Fin 1)) = BitVec.ofNat 32 n.val) :
    k0_pay1 (F := Ideal) (k0_pay4 (F := Ideal) x0) (k0_pay5 (F := Ideal) x0 T1 T2) (ix2 p q)
      = T1 (ix2 (⟨n.val / 8, by omega⟩ : Fin 125) (⟨32 * (n.val % 8) + q.val, by omega⟩ : Fin 256))
        + T2 (ix2 (⟨n.val / 8, by omega⟩ : Fin 125) (⟨32 * (n.val % 8) + q.val, by omega⟩ : Fin 256)) := by
  have hlo : k0_pay4 (F := Ideal) x0 (ix2 p (0 : Fin 1)) = BitVec.ofNat 32 (n.val % 8) := by
    rw [pay4_apply, hx, loW_ofNat n]
  have hm : n.val % 8 < 8 := Nat.mod_lt _ (by decide)
  rw [pay1_eq, fold3_apply]
  refine (fold_pick (fun l => masked (k0_pay4 (F := Ideal) x0) (k0_pay5 (F := Ideal) x0 T1 T2) (ix2 p l))
    (fun l => k0_pay5 (F := Ideal) x0 T1 T2 (ix2 p l)) (n.val % 8) hm q
    (fun l => masked_apply _ _ p l (n.val % 8) hm hlo)).trans ?_
  exact stage1_apply x0 T1 T2 p _ n hx

end Cert.KernelIdeal.Payload

end
-- ==== Proof.KernelValue.lean ====
/-
  The kernel's result array is the specification's function of the launched arguments.

  Grid point t of 1024 handles rows 2048·t … 2048·t + 2047. Its first window stages that stretch of the
  clamped index column; the second and third stage the whole of the table's two parts at every point. The
  body's result at block position (p, q) is, by its arithmetic, the first part plus the second part at group
  n div 8, lane 32·(n mod 8) + q, where n is the row number of index word 2048·t + p; the first part there is
  the table at row 8·(n div 8) + (n mod 8) = n, column q, and the second part is zero because the table is
  real. So point t writes block t of the specification's array, and the 1024 blocks tile the array's rows.
-/
import proofs.«416802_j32787780337875_3_alg».proof.Proof.Gen.KernelIdeal.Value
import proofs.«416802_j32787780337875_3_alg».proof.Proof.HostV
import proofs.«416802_j32787780337875_3_alg».proof.Proof.HostFin
import proofs.«416802_j32787780337875_3_alg».proof.Proof.Payload

noncomputable section

namespace Cert.KernelIdeal.KValue

open Cert.KernelIdeal Cert.KernelIdeal.Gen Cert.KernelIdeal.HostK Idealize.ShloMosaic Idealize.ShloMosaic.TcCoe
open Idealize.SL.Sem Idealize.ShloMosaic.ValueIdx IdealFinite
open Idealize.ShloMosaic.Pipeline (Dat)

variable (m : (ℓ : Loc nD τ sig) → Buf (Elt Ideal) ℓ) (ρ : Dev nD → PrngReg)

/-- The seven argument arrays core c was launched with, each at its literal type. -/
abbrev a0 (c : Dev nD) : IVec S2097152 32 := m ((c : Thread nD τ).loc main_arg0)
abbrev a1 (c : Dev nD) : FVec Ideal S1000x8 .f32 := m ((c : Thread nD τ).loc main_arg1)
abbrev a2 (c : Dev nD) : FVec Ideal S8x16 .f32 := m ((c : Thread nD τ).loc main_arg2)
abbrev a3 (c : Dev nD) : FVec Ideal S16 .f32 := m ((c : Thread nD τ).loc main_arg3)
abbrev a4 (c : Dev nD) : FVec Ideal S16x32 .f32 := m ((c : Thread nD τ).loc main_arg4)
abbrev a5 (c : Dev nD) : FVec Ideal S32 .f32 := m ((c : Thread nD τ).loc main_arg5)
abbrev a6 (c : Dev nD) : FVec Ideal S1000x32 .f32 := m ((c : Thread nD τ).loc main_arg6)

/-- The specification's array at the arguments core c was launched with. -/
def Gm (c : Dev nD) : S2097152x32.Idx → EReal :=
  Cert.Spec.G (a0 m c) (a1 m c) (a2 m c) (a3 m c) (a4 m c) (a5 m c) (a6 m c)

/-- Every entry of the six float arguments of core c is a real number. -/
def ArgsFin (c : Dev nD) : Prop :=
  AllFin (a1 m c) ∧ AllFin (a2 m c) ∧ AllFin (a3 m c) ∧ AllFin (a4 m c) ∧ AllFin (a5 m c) ∧ AllFin (a6 m c)

theorem hz : (![0, 0] : Fin 2 → Nat) = fun _ => 0 := funext fun a => by fin_cases a <;> rfl

/-- A grid point's number is below 1024. -/
theorem tlt (t : Fin cfg0.N) : t.val < 1024 := lt_of_lt_of_eq t.isLt N_0

/-- The printed index maps, decided over the grid: the index column and the result move with the point on the
    row axis; the two table windows stay on the one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at a point -/

/-- Row p of the index block at point t is the row number of index word 2048·t + p. -/
theorem blk_idx (c : Dev nD) (t : Fin cfg0.N) (p : Fin 2048) :
    iblk m c 0 t (ix2 p (0 : Fin 1))
      = BitVec.ofNat 32 (Cert.Spec.rowOf (a0 m c (ix1 (⟨2048 * t.val + p.val, by have := tlt t; omega⟩ : Fin 2097152)))).val := by
  obtain ⟨e0, e1, -⟩ := idx_facts t
  have ht := tlt t
  show V m c main_v18 (((cfg0.win 0).blk t).view.emb (ix2 p (0 : Fin 1))) = _
  have he : ((cfg0.win 0).blk t).view.emb (ix2 p (0 : Fin 1))
      = ix2 (⟨2048 * t.val + p.val, by omega⟩ : Fin 2097152) (0 : Fin 1) := by
    funext a; apply Fin.ext
    match a with
    | ⟨0, _⟩ => show win0_0.index t (0 : Fin 2) * 2048 + 1 * p.val = 2048 * t.val + p.val; omega
    | ⟨1, _⟩ => show win0_0.index t (1 : Fin 2) * 1 + 1 * 0 = 0; omega
  rw [he]
  refine (congrFun (V_idx m c) _).trans ?_
  exact clipCol_apply _ _

/-- The first table block at any point is the whole first part: group g, lane l is the table at row 8g + l/32,
    column l mod 32. -/
theorem blk_hi (c : Dev nD) (t : Fin cfg0.N) (g : Fin 125) (l : Fin 256) :
    iblk m c 1 t (ix2 g l)
      = Cert.Spec.table (a1 m c) (a2 m c) (a3 m c) (a4 m c) (a5 m c) (a6 m c)
          (⟨8 * g.val + l.val / 32, by omega⟩ : Fin 1000) (⟨l.val % 32, by omega⟩ : Fin 32) := by
  obtain ⟨-, -, e2, e3, -⟩ := idx_facts t
  show V m c main_v14 (((cfg0.win 1).blk t).view.emb (ix2 g l)) = _
  have he : ((cfg0.win 1).blk t).view.emb (ix2 g l) = ix2 g l := by
    funext a; apply Fin.ext
    match a with
    | ⟨0, _⟩ => show win0_1.index t (0 : Fin 2) * 125 + 1 * g.val = g.val; omega
    | ⟨1, _⟩ => show win0_1.index t (1 : Fin 2) * 256 + 1 * l.val = l.val; omega
  rw [he]
  refine (congrFun (V_hi m c) _).trans ?_
  exact tgHi_apply _ _ _ _ _ _ g l

/-- The second table block at any point is zero, the arguments being real. -/
theorem blk_lo (c : Dev nD) (hfin : ArgsFin m c) (t : Fin cfg0.N) (g : Fin 125) (l : Fin 256) :
    iblk m c 2 t (ix2 g l) = (0 : EReal) := by
  obtain ⟨-, -, -, -, e4, e5, -⟩ := idx_facts t
  obtain ⟨h1, h2, h3, h4, h5, h6⟩ := hfin
  show V m c main_v17 (((cfg0.win 2).blk t).view.emb (ix2 g l)) = _
  have he : ((cfg0.win 2).blk t).view.emb (ix2 g l) = ix2 g l := by
    funext a; apply Fin.ext
    match a with
    | ⟨0, _⟩ => show win0_2.index t (0 : Fin 2) * 125 + 1 * g.val = g.val; omega
    | ⟨1, _⟩ => show win0_2.index t (1 : Fin 2) * 256 + 1 * l.val = l.val; omega
  rw [he]
  refine (congrFun (V_lo m c) _).trans ?_
  exact tgLo_apply h1 h2 h3 h4 h5 h6 g l

/-! ## One point of the grid -/

/-- The body's result over blocks that hold what the three windows stage: at block position (p, q) it is the
    table at the row the p-th index word selects, column q. Stated over variables, then used at a point's blocks. -/
theorem point_eq (a1 : FVec Ideal S1000x8 .f32) (a2 : FVec Ideal S8x16 .f32) (a3 : FVec Ideal S16 .f32)
    (a4 : FVec Ideal S16x32 .f32) (a5 : FVec Ideal S32 .f32) (a6 : FVec Ideal S1000x32 .f32)
    (x0 : Vec Ideal S2048x1 .i32) (T1 T2 : FVec Ideal S125x256 .bf16) (p : Fin 2048) (q : Fin 32) (n : Fin 1000)
    (hx : x0 (ix2 p (0 : Fin 1)) = BitVec.ofNat 32 n.val)
    (h1 : ∀ (g : Fin 125) (l : Fin 256), T1 (ix2 g l)
      = Cert.Spec.table a1 a2 a3 a4 a5 a6 (⟨8 * g.val + l.val / 32, by omega⟩ : Fin 1000) (⟨l.val % 32, by omega⟩ : Fin 32))
    (h2 : ∀ (g : Fin 125) (l : Fin 256), T2 (ix2 g l) = 0) :
    k0_pay1 (F := Ideal) (k0_pay4 (F := Ideal) x0) (k0_pay5 (F := Ideal) x0 T1 T2) (ix2 p q)
      = Cert.Spec.table a1 a2 a3 a4 a5 a6 n q := by
  rw [Cert.KernelIdeal.Payload.pay_apply x0 T1 T2 p q n hx, h1, h2, add_zero]
  have hn := n.isLt
  have hq := q.isLt
  congr 1
  · exact Fin.ext (by show 8 * (n.val / 8) + (32 * (n.val % 8) + q.val) / 32 = n.val; omega)
  · exact Fin.ext (by show (32 * (n.val % 8) + q.val) % 32 = q.val; omega)

/-- The body's result over point t's blocks, at a block position y, is the specification's array at row
    2048·t + y₀, column y₁. -/
theorem point_y (c : Dev nD) (hfin : ArgsFin m c) (t : Fin cfg0.N) (y : S2048x32.Idx) :
    k0_pay1 (F := Ideal) (k0_pay4 (F := Ideal) (iblk m c 0 t)) (k0_pay5 (F := Ideal) (iblk m c 0 t) (iblk m c 1 t) (iblk m c 2 t)) y
      = Gm m c (ix2 (⟨2048 * t.val + (y 0).val, by have := tlt t; have := idx2_lt0 y; omega⟩ : Fin 2097152)
          (⟨(y 1).val, idx2_lt1 y⟩ : Fin 32)) := by
  obtain ⟨p, q, rfl⟩ : ∃ (p : Fin 2048) (q : Fin 32), y = ix2 p q := ⟨y 0, y 1, eq_ix2 y⟩
  exact point_eq (a1 m c) (a2 m c) (a3 m c) (a4 m c) (a5 m c) (a6 m c) (iblk m c 0 t) (iblk m c 1 t) (iblk m c 2 t) p q
    (Cert.Spec.rowOf (a0 m c (ix1 (⟨2048 * t.val + p.val, by have := tlt t; omega⟩ : Fin 2097152))))
    (blk_idx m c t p) (blk_hi m c t) (blk_lo m c hfin t)

/-- WHAT POINT t WRITES BACK is block t of the specification's array. -/
theorem flushed_eq (c : Dev nD) (hfin : ArgsFin m c) (t : Fin cfg0.N) :
    (dats m 0 c).flushed 3 t = ((cfg0.win 3).blk t).view.read (Elt Ideal) (Gm m c) := by
  rw [Value.flushed3]
  unfold out0_3
  rw [View.canon_unit_zero hz]
  simp only [View.ld_unit_zero (S := S2048x1) hz, View.ld_unit_zero (S := S125x256) hz]
  obtain ⟨-, -, -, -, -, -, e6, e7⟩ := idx_facts t
  have ht := tlt t
  funext j
  show k0_pay1 (F := Ideal) (k0_pay4 (F := Ideal) (iblk m c 0 t)) (k0_pay5 (F := Ideal) (iblk m c 0 t) (iblk m c 1 t) (iblk m c 2 t)) j
      = Gm m c (((cfg0.win 3).blk t).view.emb j)
  have hj0 : (j 0).val < 2048 := (j 0).isLt
  have hj1 : (j 1).val < 32 := (j 1).isLt
  have he : ((cfg0.win 3).blk t).view.emb j
      = ix2 (⟨2048 * t.val + (j 0).val, by omega⟩ : Fin 2097152) (⟨(j 1).val, hj1⟩ : Fin 32) := by
    funext a; apply Fin.ext
    match a with
    | ⟨0, _⟩ => show win0_3.index t (0 : Fin 2) * 2048 + 1 * (j 0).val = 2048 * t.val + (j 0).val; omega
    | ⟨1, _⟩ => show win0_3.index t (1 : Fin 2) * 32 + 1 * (j 1).val = (j 1).val; omega
  rw [he]
  exact point_y m c hfin t j

/-! ## From blocks to the array -/

/-- An index of the array is in point t's block iff each coordinate is in the block's range on its axis. -/
theorem mem_blk (t : Fin cfg0.N) (i : S2097152x32.Idx) :
    i ∈ ((cfg0.win 3).blk t).view.set ↔ ∀ a : Fin 2, win0_3.index t a * S2048x32.size a ≤ (i a).val
      ∧ (i a).val < win0_3.index t a * S2048x32.size a + S2048x32.size a := by
  show i ∈ ((View.whole main_v19).slice (win0_3.rect t)).set ↔ _
  rw [View.set_slice_whole, Rect.mem_set_unit]
  exact Iff.rfl

/-- Every row of the array is in the block of the point numbered row div 2048. -/
theorem cover (i : S2097152x32.Idx) : ∃ t : Fin cfg0.N, (cfg0.win 3).flush t = true ∧ i ∈ ((cfg0.win 3).blk t).view.set := by
  have hi0 : (i 0).val < 2097152 := (i 0).isLt
  have hi1 : (i 1).val < 32 := (i 1).isLt
  let t : Fin cfg0.N := ⟨(i 0).val / 2048, by rw [show cfg0.N = 1024 from N_0]; omega⟩
  obtain ⟨-, -, -, -, -, -, e6, e7⟩ := idx_facts t
  have htv : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 32 ≤ (i 1).val ∧ (i 1).val < win0_3.index t (1 : Fin 2) * 32 + 32; omega

/-- THE ARRAY after the run is the specification's. -/
theorem final (c : Dev nD) (hfin : ArgsFin m c) : (dats m 0 c).arrAt 3 cfg0.N = Gm m c :=
  (dats m 0 c).arrAt_eq_of_cover 3 (Gm m c) (fun t _ => flushed_eq m c hfin t) cover

/-- The kernel's run, read: real float arguments on every core give the specification's array, the arguments
    unchanged. -/
theorem run (hfin : ∀ c : Dev nD, ArgsFin m c) :
    θ_run defs (onTc (τ := τ) (main (F := Ideal))) ⟨m, fun _ => 0, ρ⟩ fun r => ∀ c : Dev nD,
      r.2.mem ((c : Thread nD τ).loc main_v19) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hfin c)), (h c).2⟩) (Value.run_blocks m ρ)

end Cert.KernelIdeal.KValue

end
-- ==== Proof.RefValue.lean ====
/-
  The reference program's result, read at one index.

  The program looks up row idx[r] of two 1000-row tables. Array indexing first adds 1000 to a negative
  index word (a compare, an add and a select), and the gather then reads the word as a signed integer
  and clamps it into 0..999. Under the hypothesis that every index word is non-negative the first step
  leaves the word alone, so the row read is min (toNat of the signed value) 999: the specification's
  row. Everything after the two lookups is elementwise or a finite sum, and reading it at (r, j) gives
  the specification's table at that row and column j, term for term.
-/
import proofs.«416802_j32787780337875_3_alg».proof.Proof.Gen.ReferenceIdeal.Read
import proofs.«416802_j32787780337875_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## A row lookup, at any width -/

/-- A gather that takes whole rows of a 1000-row table: the operand's row axis is collapsed and is the
    one the start index addresses, the column axis is kept whole, and the start indices are an [R, 1]
    column. Element (r, j) of the result is the table at column j of the row that the r-th start index
    names, read signed and clamped into 0..999. -/
theorem gather_row_apply {α : Type} {C R w : Nat}
    (d : GatherDims ⟨2, ![1000, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![1000, C]⟩ : Shape).Idx → α) (idx : IVec ⟨2, ![R, 1]⟩ w) (r : Fin R) (j : Fin C) :
    Host.gather d x idx (ix2 r j)
      = x (ix2 (⟨min (idx (ix2 r (0 : Fin 1))).toInt.toNat 999, by omega⟩ : Fin 1000) j) := by
  obtain ⟨od, cd, obd, sbd, sim, ivd, ss, wf⟩ := d
  dsimp only at hoff hcoll hob hsim hivd hss
  subst hoff hcoll hob hsim hivd hss
  unfold Host.gather
  refine congrArg x ?_
  funext a
  refine Fin.ext ?_
  match a with
  | ⟨0, _⟩ =>
    -- the row axis: collapsed, and the one the start index addresses
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![1000, C]⟩)
        ⟨[1], [0], [], sbd, [0], 1, ![1, C], wf⟩ (ix2 r j)
        ⟨List.idxOf (0 : Fin 2) [0], List.idxOf_lt_length_iff.2 (List.mem_singleton.mpr rfl)⟩
        = ix2 r (0 : Fin 1) := by
      funext b; refine Fin.ext ?_
      match b with
      | ⟨0, _⟩ => rfl
      | ⟨1, _⟩ => rfl
    rw [hsi]
    rfl
  | ⟨1, _⟩ =>
    -- the column axis: kept whole, not start-indexed
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (List.mem_singleton.mp h) (show ¬((1 : Fin 2) = 0) by decide))]
    unfold GatherDims.offCoord
    rw [dif_pos ((GatherDims.mem_sKept _ _).mpr ⟨fun h => absurd (List.mem_singleton.mp h) (show ¬((1 : Fin 2) = 0) by decide), List.not_mem_nil⟩)]
    simp only [Nat.zero_add]
    rfl

/-! ## The index word that reaches the lookups -/

/-- A non-negative word is not below zero as a signed integer, so the comparison bit is clear. -/
theorem cmpi_slt_zero_of_nonneg (w : BitVec 32) (h : 0 ≤ w.toInt) : IntOp.cmpi .slt w 0#32 = 0#1 := by
  have hs : w.slt 0#32 = false := by
    rw [Bool.eq_false_iff]
    intro hlt
    rw [BitVec.slt_iff_toInt_lt, BitVec.toInt_zero] at hlt
    omega
  show BitVec.ofBool (w.slt 0#32) = 0#1
  rw [hs]
  rfl

/-- The start-index column of the first lookup holds, at row r, the r-th index word itself: the
    wrap-around of a negative index never applies. -/
theorem v5_apply (x0 : (⟨S2097152, .i32⟩ : BufTy).Contents (Elt Ideal))
    (hnn : ∀ r : Fin 2097152, 0 ≤ (x0 (ix1 r)).toInt) (r : Fin 2097152) :
    val_main_v5 (F := Ideal) x0 (ix2 r (0 : Fin 1)) = x0 (ix1 r) := by
  have hi : idx_main_v5 (ix2 r (0 : Fin 1)) = ix1 r :=
    funext fun a => Fin.ext (by match a with | ⟨0, _⟩ => rfl)
  rw [val_main_v5_apply, hi, val_main_v4_apply, val_main_v1_apply, val_main_v0_apply, val_main_c_apply,
    cmpi_slt_zero_of_nonneg _ (hnn r), select_zero]

/-- The same for the second lookup's start-index column. -/
theorem v21_apply (x0 : (⟨S2097152, .i32⟩ : BufTy).Contents (Elt Ideal))
    (hnn : ∀ r : Fin 2097152, 0 ≤ (x0 (ix1 r)).toInt) (r : Fin 2097152) :
    val_main_v21 (F := Ideal) x0 (ix2 r (0 : Fin 1)) = x0 (ix1 r) := by
  have hi : idx_main_v21 (ix2 r (0 : Fin 1)) = ix1 r :=
    funext fun a => Fin.ext (by match a with | ⟨0, _⟩ => rfl)
  rw [val_main_v21_apply, hi, val_main_v20_apply, val_main_v17_apply, val_main_v16_apply, val_main_c_1_apply,
    cmpi_slt_zero_of_nonneg _ (hnn r), select_zero]

/-! ## The two lookups -/

/-- The gathered variables: row r is the table's row that the r-th index word selects. -/
theorem v6_apply (x0 : (⟨S2097152, .i32⟩ : BufTy).Contents (Elt Ideal)) (x1 : (⟨S1000x8, .f32⟩ : BufTy).Contents (Elt Ideal))
    (hnn : ∀ r : Fin 2097152, 0 ≤ (x0 (ix1 r)).toInt) (r : Fin 2097152) (a : Fin 8) :
    val_main_v6 (F := Ideal) x0 x1 (ix2 r a) = x1 (ix2 (Cert.Spec.rowOf (x0 (ix1 r))) a) := by
  unfold val_main_v6
  rw [gather_row_apply gather_S1000x8_S2097152x1_S2097152x8_1_0_n_n_0_1_18 rfl rfl rfl rfl rfl rfl]
  simp only [v5_apply x0 hnn r]
  rfl

/-- The gathered embedding: row r is the table's row that the r-th index word selects. -/
theorem v22_apply (x0 : (⟨S2097152, .i32⟩ : BufTy).Contents (Elt Ideal)) (x6 : (⟨S1000x32, .f32⟩ : BufTy).Contents (Elt Ideal))
    (hnn : ∀ r : Fin 2097152, 0 ≤ (x0 (ix1 r)).toInt) (r : Fin 2097152) (j : Fin 32) :
    val_main_v22 (F := Ideal) x0 x6 (ix2 r j) = x6 (ix2 (Cert.Spec.rowOf (x0 (ix1 r))) j) := by
  unfold val_main_v22
  rw [gather_row_apply gather_S1000x32_S2097152x1_S2097152x32_1_0_n_n_0_1_132 rfl rfl rfl rfl rfl rfl]
  simp only [v21_apply x0 hnn r]
  rfl

/-! ## The two layers and the residual, at one index -/

/-- The rectified first layer at (r, k) is the specification's hidden unit k of the selected row. -/
theorem v11_apply (x0 : (⟨S2097152, .i32⟩ : BufTy).Contents (Elt Ideal)) (x1 : (⟨S1000x8, .f32⟩ : BufTy).Contents (Elt Ideal))
    (x2 : (⟨S8x16, .f32⟩ : BufTy).Contents (Elt Ideal)) (x3 : (⟨S16, .f32⟩ : BufTy).Contents (Elt Ideal))
    (hnn : ∀ r : Fin 2097152, 0 ≤ (x0 (ix1 r)).toInt) (r : Fin 2097152) (k : Fin 16) :
    val_main_v11 (F := Ideal) x0 x1 x2 x3 (ix2 r k)
      = Cert.Spec.hidden x1 x2 x3 (Cert.Spec.rowOf (x0 (ix1 r))) k := by
  have hb : idx_main_v8 (idx_main_v9 (ix2 r k)) = ix1 k :=
    funext fun a => Fin.ext (by match a with | ⟨0, _⟩ => rfl)
  rw [val_main_v11_apply, val_main_v10_apply, val_main_v7_apply, val_main_v9_apply, val_main_v8_apply, hb,
    val_main_call0_v0_apply, val_main_call0_cst_apply]
  unfold Cert.Spec.hidden Cert.Spec.cZero
  rw [Ideal.maximumf_def, Ideal.addf_def, Ideal.ofBits_def]
  refine congrArg (fun s => max (s + _) _) (Finset.sum_congr rfl fun a _ => ?_)
  have hl : lidx_main_v7 (ix2 r k) a = ix2 r a :=
    funext fun b => Fin.ext (by match b with | ⟨0, _⟩ => rfl | ⟨1, _⟩ => rfl)
  have hr : ridx_main_v7 (ix2 r k) a = ix2 a k :=
    funext fun b => Fin.ext (by match b with | ⟨0, _⟩ => rfl | ⟨1, _⟩ => rfl)
  rw [hl, hr, v6_apply x0 x1 hnn r a]

/-- The reference's result is the specification's function of the argument arrays. -/
theorem ref_eq (x0 : (⟨S2097152, .i32⟩ : BufTy).Contents (Elt Ideal)) (x1 : (⟨S1000x8, .f32⟩ : BufTy).Contents (Elt Ideal))
    (x2 : (⟨S8x16, .f32⟩ : BufTy).Contents (Elt Ideal)) (x3 : (⟨S16, .f32⟩ : BufTy).Contents (Elt Ideal))
    (x4 : (⟨S16x32, .f32⟩ : BufTy).Contents (Elt Ideal)) (x5 : (⟨S32, .f32⟩ : BufTy).Contents (Elt Ideal))
    (x6 : (⟨S1000x32, .f32⟩ : BufTy).Contents (Elt Ideal))
    (hnn : ∀ r : Fin 2097152, 0 ≤ (x0 (ix1 r)).toInt) :
    val_main_v25 (F := Ideal) x0 x1 x2 x3 x4 x5 x6 = Cert.Spec.G x0 x1 x2 x3 x4 x5 x6 := by
  funext i
  obtain ⟨r, j, rfl⟩ : ∃ (r : Fin 2097152) (j : Fin 32), i = ix2 r j := ⟨i 0, i 1, eq_ix2 i⟩
  have hb : idx_main_v13 (idx_main_v14 (ix2 r j)) = ix1 j :=
    funext fun a => Fin.ext (by match a with | ⟨0, _⟩ => rfl)
  rw [val_main_v25_apply, val_main_v15_apply, val_main_v12_apply, val_main_v14_apply, val_main_v13_apply, hb,
    val_main_v24_apply, val_main_v23_apply, val_main_cst_apply, v22_apply x0 x6 hnn r j]
  show _ = Cert.Spec.table x1 x2 x3 x4 x5 x6 (Cert.Spec.rowOf (x0 (ix1 r))) j
  unfold Cert.Spec.table Cert.Spec.cRes
  rw [Ideal.addf_def, Ideal.addf_def, Ideal.mulf_def, Ideal.ofBits_def]
  refine congrArg (fun s => (s + _) + _) (Finset.sum_congr rfl fun k _ => ?_)
  have hl : lidx_main_v12 (ix2 r j) k = ix2 r k :=
    funext fun b => Fin.ext (by match b with | ⟨0, _⟩ => rfl | ⟨1, _⟩ => rfl)
  have hr : ridx_main_v12 (ix2 r j) k = ix2 k j :=
    funext fun b => Fin.ext (by match b with | ⟨0, _⟩ => rfl | ⟨1, _⟩ => rfl)
  rw [hl, hr, v11_apply x0 x1 x2 x3 hnn r k]

end Cert.ReferenceIdeal.RefValue

end
-- ==== Proof.PreDecode.lean ====
/-
  The precondition "all inputs are finite", read back as arithmetic.

  The precondition is one bit: the conjunction of seven bits. Six of them say, each for one float
  array, that |x| < +∞ holds at EVERY entry (a conjunction over all entries of the bits "|x| < +∞");
  the seventh says that 0 ≤ w holds, as signed integers, at every entry w of the index array.

  A conjunction of bits is one only if every bit in it is one. At the ideal reading of floats an entry
  is an extended real, the word 0x7F800000 denotes +∞, and |x| is max x (−x): for x = −∞ or x = +∞
  this maximum is +∞, which is not below +∞, so an entry with |x| < +∞ is a real number. The signed
  comparison 0 ≤ w of 32-bit words is, by definition, the comparison of their integer values.
-/
import proofs.«416802_j32787780337875_3_alg».proof.Pre_finite_inputs
import proofs.«416802_j32787780337875_3_alg».proof.Proof.LibIdealFinite
import Idealize.ShloMosaic.Lib.ReduceAll
import Idealize.ShloMosaic.Lib.ValueIdx

noncomputable section

namespace Cert.PreDecode

open Idealize.ShloMosaic Idealize.ShloMosaic.ValueIdx Cert.Pre_finite_inputs

/-- The scalar shape has exactly one index. -/
instance subsingleton_scalar_idx : Subsingleton S_.Idx := ⟨fun a b => funext fun d => d.elim0⟩

/-- A bit made from a truth value is one only if the truth value is "true". -/
theorem true_of_ofBool_eq_one {b : Bool} (h : BitVec.ofBool b = 1#1) : b = true := by
  cases b
  · exact absurd h (by decide)
  · rfl

/-- ONE FLOAT ENTRY. If the bit "|x| < (the number the word 0x7F800000 denotes)" is one, then x is a
    real number: that word denotes +∞, and for x = ±∞ the absolute value max x (−x) is +∞ itself. -/
theorem isFin_of_abs_lt_inf {x : EReal}
    (h : Ideal.cmp .olt (max x (-x)) (Ideal.ofBits .f32 0x7F800000#32) = 1#1) : IdealFinite.IsFin x := by
  rw [IdealFinite.ofBits_7F800000] at h
  have h' : BitVec.ofBool (decide (max x (-x) < ⊤)) = 1#1 := h
  have hlt : max x (-x) < ⊤ := of_decide_eq_true (true_of_ofBool_eq_one h')
  induction x using EReal.rec with
  | bot => exact absurd hlt (by simp)
  | coe r => exact ⟨r, rfl⟩
  | top => exact absurd hlt (by simp)

/-- ONE INDEX WORD. If the bit "w ≥ 0, signed" is one, the integer value of w is not negative. -/
theorem toInt_nonneg_of_sge_zero {w : BitVec 32} (h : IntOp.cmpi .sge w 0#32 = 1#1) : 0 ≤ w.toInt := by
  have h' : BitVec.ofBool ((0#32 : BitVec 32).sle w) = 1#1 := h
  have hle := BitVec.sle_iff_toInt_le.1 (true_of_ofBool_eq_one h')
  simpa using hle

/-- ONE FLOAT ARRAY. If the conjunction, over all entries of an array, of the bits "|x| < +∞" is one,
    every entry of the array is a real number. -/
theorem allFin_of_all {s : Shape} {axes : List (Fin s.rank)} (v : FVec Ideal s .f32)
    (hb : S_.BroadcastsInDim s (![] : Fin 0 → Fin s.rank)) (hr : s.ReducesTo axes S_) (h0 : 0 < S_.numel)
    (init : IVec S_ 1)
    (e : Host.reduce IntOp.andi
        (cmpf .olt (Host.absf v) (broadcastInDim s ![] hb (constant (F := Ideal) S_ .f32 0x7F800000#32)))
        init hr h0 ix0 = 1#1) :
    IdealFinite.AllFin v := fun i =>
  isFin_of_abs_lt_inf (x := v i) (Host.reduce_andi_all _ init hr h0 ix0 e i)

/-- THE INDEX ARRAY. If the conjunction over all entries of the bits "w ≥ 0, signed" is one, every entry's
    integer value is not negative. -/
theorem nonneg_of_all {s : Shape} {axes : List (Fin s.rank)} (a : IVec s 32)
    (hb : S_.BroadcastsInDim s (![] : Fin 0 → Fin s.rank)) (hr : s.ReducesTo axes S_) (h0 : 0 < S_.numel)
    (init : IVec S_ 1)
    (e : Host.reduce IntOp.andi (cmpi .sge a (broadcastInDim s ![] hb (constantI S_ 32 0#32))) init hr h0 ix0 = 1#1)
    (i : s.Idx) : 0 ≤ (a i).toInt :=
  toInt_nonneg_of_sge_zero (w := a i) (Host.reduce_andi_all _ init hr h0 ix0 e i)

/-- THE PRECONDITION, DECODED: if the printed predicate is one on the seven arrays, every entry of the six
    float arrays is a real number and every index word is ≥ 0 as a signed integer. -/
theorem decode [Cert.Pre_finite_inputs.Facts] (a0 : IVec S2097152 32) (a1 : FVec Ideal S1000x8 .f32) (a2 : FVec Ideal S8x16 .f32)
    (a3 : FVec Ideal S16 .f32) (a4 : FVec Ideal S16x32 .f32) (a5 : FVec Ideal S32 .f32) (a6 : FVec Ideal S1000x32 .f32)
    (h : Cert.Pre_finite_inputs.fn (F := Ideal) a0 a1 a2 a3 a4 a5 a6 = fun _ => 1#1) :
    IdealFinite.AllFin a1 ∧ IdealFinite.AllFin a2 ∧ IdealFinite.AllFin a3 ∧ IdealFinite.AllFin a4
      ∧ IdealFinite.AllFin a5 ∧ IdealFinite.AllFin a6 ∧ ∀ r : Fin 2097152, 0 ≤ (a0 (ix1 r)).toInt := by
  have h0 := congrFun h ix0
  dsimp only [fn, fn_part1] at h0
  -- the result is a chain of six two-bit conjunctions: peel them off from the outside
  obtain ⟨h0, e0⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨allFin_of_all a1 _ _ _ _ e1, allFin_of_all a2 _ _ _ _ e2, allFin_of_all a3 _ _ _ _ e3,
    allFin_of_all a4 _ _ _ _ e4, allFin_of_all a5 _ _ _ _ e5, allFin_of_all a6 _ _ _ _ e6,
    fun r => nonneg_of_all a0 _ _ _ _ e0 (ix1 r)⟩

end Cert.PreDecode

end
-- ==== Proof.lean ====
/-
  A gather of table rows done two ways.

  Both programs compute, for each of 2097152 index words, the row of a 1000-row table the word selects:
  the table's row n is a two-layer map (an affine map, a rectifier, an affine map) of row n of a 1000×8 array
  plus one tenth of row n of a 1000×32 embedding. The reference gathers the two rows first and applies the map
  to the gathered rows; the kernel's host code applies the map to all 1000 rows once, and the kernel then picks
  rows out of the finished table by a one-hot matrix product over 125 groups of 8 rows followed by a masked fold
  over the 8 rows of the group. Index by index both are the specification's `G`: the table at the row the index
  word selects (Proof/Spec.lean).

  Two facts about the inputs are used, both from the precondition. The float arguments are finite: the kernel
  splits the table into a narrow-format part and the remainder t − t', which at exact arithmetic is t − t and
  vanishes only for a real t. The index words are not negative: the reference adds 1000 to a negative index
  before its gather clamps it, while the kernel's host code clamps at once, so the two select the same row
  exactly when that branch is not taken (above 999 both clamp to row 999, so no upper bound is needed).

  The frames are the generated ones (the reference's is its generated run with the result dropped); the
  idealization changed no operation, so there is nothing to preserve.
-/
import proofs.«416802_j32787780337875_3_alg».proof.Defs
import proofs.«416802_j32787780337875_3_alg».proof.Proof.Gen.Kernel
import proofs.«416802_j32787780337875_3_alg».proof.Proof.Gen.Kernel.Skeleton
import proofs.«416802_j32787780337875_3_alg».proof.Proof.Gen.Kernel.Launch
import proofs.«416802_j32787780337875_3_alg».proof.Proof.Gen.Kernel.Points
import proofs.«416802_j32787780337875_3_alg».proof.Proof.Gen.Kernel.Frame
import proofs.«416802_j32787780337875_3_alg».proof.Proof.Gen.KernelIdeal
import proofs.«416802_j32787780337875_3_alg».proof.Proof.Gen.KernelIdeal.Skeleton
import proofs.«416802_j32787780337875_3_alg».proof.Proof.Gen.KernelIdeal.Launch
import proofs.«416802_j32787780337875_3_alg».proof.Proof.Gen.KernelIdeal.Points
import proofs.«416802_j32787780337875_3_alg».proof.Proof.Gen.KernelIdeal.Frame
import proofs.«416802_j32787780337875_3_alg».proof.Proof.Gen.ReferenceIdeal
import proofs.«416802_j32787780337875_3_alg».proof.Proof.Gen.Pre_finite_inputs
import proofs.«416802_j32787780337875_3_alg».proof.Proof.Gen.KernelIdeal.Value
import proofs.«416802_j32787780337875_3_alg».proof.Proof.Gen.ReferenceIdeal.Run
import proofs.«416802_j32787780337875_3_alg».proof.Proof.Gen.ReferenceIdeal.Read
import proofs.«416802_j32787780337875_3_alg».proof.Proof.KernelValue
import proofs.«416802_j32787780337875_3_alg».proof.Proof.RefValue
import proofs.«416802_j32787780337875_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read at exact arithmetic. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, finite and with no negative index word, both programs end
    with the specification's array. -/
theorem algebraic : Cert.algebraic_KernelIdeal_ReferenceIdeal := by
  intro m ρ m' ρ' hpre hagree
  have hdec := fun c : Dev Cert.KernelIdeal.nD => Cert.PreDecode.decode _ _ _ _ _ _ _ (hpre c)
  refine ⟨fun c => Cert.KernelIdeal.KValue.Gm m c,
    Cert.KernelIdeal.KValue.run m ρ (fun c =>
      ⟨(hdec c).1, (hdec c).2.1, (hdec c).2.2.1, (hdec c).2.2.2.1, (hdec c).2.2.2.2.1, (hdec c).2.2.2.2.2.1⟩), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.ReferenceIdeal.Read.val_main_v25_eq _ _ _ _ _ _ _).trans ?_
  rw [e0, e1, e2, e3, e4, e5, e6]
  exact Cert.ReferenceIdeal.RefValue.ref_eq _ _ _ _ _ _ _ (hdec c).2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
